-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1000000 : Shape := ⟨2, ![2, 1000000]⟩
abbrev S2x200000 : Shape := ⟨2, ![2, 200000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1000000 32) (main_arg2 : IVec S2x200000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S100000x128 : Shape := ⟨2, ![100000, 128]⟩
abbrev S2x1000000 : Shape := ⟨2, ![2, 1000000]⟩
abbrev S2x200000 : Shape := ⟨2, ![2, 200000]⟩
abbrev S128x128 : Shape := ⟨2, ![128, 128]⟩
abbrev S128 : Shape := ⟨1, ![128]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S20000x128 : Shape := ⟨2, ![20000, 128]⟩
abbrev S1100000x128 : Shape := ⟨2, ![1100000, 128]⟩
abbrev S1x128 : Shape := ⟨2, ![1, 128]⟩
abbrev S10000x128 : Shape := ⟨2, ![10000, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩
abbrev S10000x1 : Shape := ⟨2, ![10000, 1]⟩
abbrev S10000 : Shape := ⟨1, ![10000]⟩

abbrev nBuf : Space → Nat
  | .hbm => 113
  | .vmem => 26
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1x1000000, .i32⟩
  | .hbm, ⟨9, _⟩ => ⟨S1000000, .i32⟩
  | .hbm, ⟨10, _⟩ => ⟨S1x1000000, .i32⟩
  | .hbm, ⟨11, _⟩ => ⟨S1000000, .i32⟩
  | .hbm, ⟨12, _⟩ => ⟨S1100000, .i32⟩
  | .hbm, ⟨13, _⟩ => ⟨S1100000, .i32⟩
  | .hbm, ⟨14, _⟩ => ⟨S_, .f32⟩
  | .hbm, ⟨15, _⟩ => ⟨S1100000, .f32⟩
  | .hbm, ⟨16, _⟩ => ⟨S_, .f32⟩
  | .hbm, ⟨17, _⟩ => ⟨S100000, .f32⟩
  | .hbm, ⟨18, _⟩ => ⟨S1100000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1100000, .i32⟩
  | .hbm, ⟨30, _⟩ => ⟨S1100000, .i1⟩
  | .hbm, ⟨31, _⟩ => ⟨S_, .i32⟩
  | .hbm, ⟨32, _⟩ => ⟨S1100000, .i32⟩
  | .hbm, ⟨33, _⟩ => ⟨S1100000, .i32⟩
  | .hbm, ⟨34, _⟩ => ⟨S1100000, .i32⟩
  | .hbm, ⟨35, _⟩ => ⟨S1100000x1, .i32⟩
  | .hbm, ⟨36, _⟩ => ⟨S1100000, .f32⟩
  | .hbm, ⟨37, _⟩ => ⟨S_, .i32⟩
  | .hbm, ⟨38, _⟩ => ⟨S1100000, .i32⟩
  | .hbm, ⟨39, _⟩ => ⟨S1100000, .i1⟩
  | .hbm, ⟨40, _⟩ => ⟨S_, .i32⟩
  | .hbm, ⟨41, _⟩ => ⟨S1100000, .i32⟩
  | .hbm, ⟨42, _⟩ => ⟨S1100000, .i32⟩
  | .hbm, ⟨43, _⟩ => ⟨S1100000, .i32⟩
  | .hbm, ⟨44, _⟩ => ⟨S1100000x1, .i32⟩
  | .hbm, ⟨45, _⟩ => ⟨S1100000, .f32⟩
  | .hbm, ⟨46, _⟩ => ⟨S1100000, .f32⟩
  | .hbm, ⟨47, _⟩ => ⟨S100000x128, .bf16⟩
  | .hbm, ⟨48, _⟩ => ⟨S128x128, .bf16⟩
  | .hbm, ⟨49, _⟩ => ⟨S100000x128, .f32⟩
  | .hbm, ⟨50, _⟩ => ⟨S_, .i32⟩
  | .hbm, ⟨51, _⟩ => ⟨S1100000, .i32⟩
  | .hbm, ⟨52, _⟩ => ⟨S1100000, .i1⟩
  | .hbm, ⟨53, _⟩ => ⟨S_, .i32⟩
  | .hbm, ⟨54, _⟩ => ⟨S1100000, .i32⟩
  | .hbm, ⟨55, _⟩ => ⟨S1100000, .i32⟩
  | .hbm, ⟨56, _⟩ => ⟨S1100000, .i32⟩
  | .hbm, ⟨57, _⟩ => ⟨S1100000x1, .i32⟩
  | .hbm, ⟨58, _⟩ => ⟨S1100000x128, .f32⟩
  | .hbm, ⟨59, _⟩ => ⟨S1100000x1, .f32⟩
  | .hbm, ⟨60, _⟩ => ⟨S1100000x128, .f32⟩
  | .hbm, ⟨61, _⟩ => ⟨S1100000x128, .f32⟩
  | .hbm, ⟨62, _⟩ => ⟨S_, .f32⟩
  | .hbm, ⟨63, _⟩ => ⟨S100000x128, .f32⟩
  | .hbm, ⟨64, _⟩ => ⟨S1100000x1, .i32⟩
  | .hbm, ⟨65, _⟩ => ⟨S100000x128, .f32⟩
  | .hbm, ⟨66, _⟩ => ⟨S1x128, .f32⟩
  | .hbm, ⟨67, _⟩ => ⟨S100000x128, .f32⟩
  | .hbm, ⟨68, _⟩ => ⟨S100000x128, .bf16⟩
  | .hbm, ⟨69, _⟩ => ⟨S128x128, .bf16⟩
  | .hbm, ⟨70, _⟩ => ⟨S100000x128, .f32⟩
  | .hbm, ⟨71, _⟩ => ⟨S_, .i32⟩
  | .hbm, ⟨72, _⟩ => ⟨S1100000, .i32⟩
  | .hbm, ⟨73, _⟩ => ⟨S1100000, .i1⟩
  | .hbm, ⟨74, _⟩ => ⟨S_, .i32⟩
  | .hbm, ⟨75, _⟩ => ⟨S1100000, .i32⟩
  | .hbm, ⟨76, _⟩ => ⟨S1100000, .i32⟩
  | .hbm, ⟨77, _⟩ => ⟨S1100000, .i32⟩
  | .hbm, ⟨78, _⟩ => ⟨S1100000x1, .i32⟩
  | .hbm, ⟨79, _⟩ => ⟨S1100000x128, .f32⟩
  | .hbm, ⟨80, _⟩ => ⟨S1100000x1, .f32⟩
  | .hbm, ⟨81, _⟩ => ⟨S1100000x128, .f32⟩
  | .hbm, ⟨82, _⟩ => ⟨S1100000x128, .f32⟩
  | .hbm, ⟨83, _⟩ => ⟨S_, .f32⟩
  | .hbm, ⟨84, _⟩ => ⟨S100000x128, .f32⟩
  | .hbm, ⟨85, _⟩ => ⟨S1100000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S1x200000, .i32⟩
  | .hbm, ⟨90, _⟩ => ⟨S200000, .i32⟩
  | .hbm, ⟨91, _⟩ => ⟨S_, .i32⟩
  | .hbm, ⟨92, _⟩ => ⟨S200000, .i32⟩
  | .hbm, ⟨93, _⟩ => ⟨S200000, .i1⟩
  | .hbm, ⟨94, _⟩ => ⟨S_, .i32⟩
  | .hbm, ⟨95, _⟩ => ⟨S200000, .i32⟩
  | .hbm, ⟨96, _⟩ => ⟨S200000, .i32⟩
  | .hbm, ⟨97, _⟩ => ⟨S200000, .i32⟩
  | .hbm, ⟨98, _⟩ => ⟨S200000x1, .i32⟩
  | .hbm, ⟨99, _⟩ => ⟨S200000x128, .f32⟩
  | .hbm, ⟨100, _⟩ => ⟨S1x200000, .i32⟩
  | .hbm, ⟨101, _⟩ => ⟨S200000, .i32⟩
  | .hbm, ⟨102, _⟩ => ⟨S_, .i32⟩
  | .hbm, ⟨103, _⟩ => ⟨S200000, .i32⟩
  | .hbm, ⟨104, _⟩ => ⟨S200000, .i1⟩
  | .hbm, ⟨105, _⟩ => ⟨S_, .i32⟩
  | .hbm, ⟨106, _⟩ => ⟨S200000, .i32⟩
  | .hbm, ⟨107, _⟩ => ⟨S200000, .i32⟩
  | .hbm, ⟨108, _⟩ => ⟨S200000, .i32⟩
  | .hbm, ⟨109, _⟩ => ⟨S200000x1, .i32⟩
  | .hbm, ⟨110, _⟩ => ⟨S200000x128, .f32⟩
  | .hbm, ⟨111, _⟩ => ⟨S200000x1, .f32⟩
  | .hbm, ⟨112, _⟩ => ⟨S200000, .f32⟩
  | .local _ .vmem, ⟨0, _⟩ => ⟨S20000x128, .bf16⟩
  | .local _ .vmem, ⟨1, _⟩ => ⟨S20000x128, .bf16⟩
  | .local _ .vmem, ⟨2, _⟩ => ⟨S128x128, .bf16⟩
  | .local _ .vmem, ⟨3, _⟩ => ⟨S20000x128, .f32⟩
  | .local _ .vmem, ⟨4, _⟩ => ⟨S20000x128, .f32⟩
  | .local _ .vmem, ⟨5, _⟩ => ⟨S10000x128, .f32⟩
  | .local _ .vmem, ⟨6, _⟩ => ⟨S10000x128, .f32⟩
  | .local _ .vmem, ⟨7, _⟩ => ⟨S1x128, .f32⟩
  | .local _ .vmem, ⟨8, _⟩ => ⟨S10000x128, .f32⟩
  | .local _ .vmem, ⟨9, _⟩ => ⟨S10000x128, .f32⟩
  | .local _ .vmem, ⟨10, _⟩ => ⟨S20000x128, .bf16⟩
  | .local _ .vmem, ⟨11, _⟩ => ⟨S20000x128, .bf16⟩
  | .local _ .vmem, ⟨12, _⟩ => ⟨S128x128, .bf16⟩
  | .local _ .vmem, ⟨13, _⟩ => ⟨S20000x128, .f32⟩
  | .local _ .vmem, ⟨14, _⟩ => ⟨S20000x128, .f32⟩
  | .local _ .vmem, ⟨15, _⟩ => ⟨S10000x128, .f32⟩
  | .local _ .vmem, ⟨16, _⟩ => ⟨S10000x128, .f32⟩
  | .local _ .vmem, ⟨17, _⟩ => ⟨S1x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S10000x128, .f32⟩
  | .local _ .vmem, ⟨23, _⟩ => ⟨S10000x128, .f32⟩
  | .local _ .vmem, ⟨24, _⟩ => ⟨S10000x1, .f32⟩
  | .local _ .vmem, ⟨25, _⟩ => ⟨S10000x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_c_9 : Ref sig .tc := ⟨.hbm, 71, rfl⟩
abbrev main_v51 : Ref sig .tc := ⟨.hbm, 72, rfl⟩
abbrev main_v52 : Ref sig .tc := ⟨.hbm, 73, rfl⟩
abbrev main_c_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_c_12 : Ref sig .tc := ⟨.hbm, 91, rfl⟩
abbrev main_v68 : Ref sig .tc := ⟨.hbm, 92, rfl⟩
abbrev main_v69 : Ref sig .tc := ⟨.hbm, 93, rfl⟩
abbrev main_c_13 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_c_14 : Ref sig .tc := ⟨.hbm, 102, rfl⟩
abbrev main_v77 : Ref sig .tc := ⟨.hbm, 103, rfl⟩
abbrev main_v78 : Ref sig .tc := ⟨.hbm, 104, rfl⟩
abbrev main_c_15 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S20000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S20000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S20000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bitsLt_bf16_f32 : FTy.bits .bf16 < FTy.bits .f32
  inb_S20000x128_S20000x128_0_0 : ∀ a, (![0, 0] : Fin 2 → Nat) a + S20000x128.size a ≤ S20000x128.size a
  h_S20000x128 : 0 < S20000x128.numel
  shapeCasts_S20000x128_S20000x128 : S20000x128.ShapeCasts S20000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reduces_S10000x128_S10000 : S10000x128.Reduces [1] S10000
  shapeCasts_S10000_S10000x1 : S10000.ShapeCasts S10000x1
  inb_S10000x1_S10000x1_0_0 : ∀ a, (![0, 0] : Fin 2 → Nat) a + S10000x1.size a ≤ S10000x1.size a
  h_S10000x1 : 0 < S10000x1.numel
  shapeCasts_S200000x1_S200000 : S200000x1.ShapeCasts S200000
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S20000x128_S128x128_S20000x128_1_0_0_1_n_n_wf : DotDims.WF S20000x128 S128x128 S20000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  gather_S100000x128_S200000x1_S200000x128_1_0_n_n_0_1_1128_wf : GatherDims.WF S100000x128 S200000x1 S200000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x128.size a ≤ S100000x128.size a
  hwx0_0 : ∀ i : grid0.Coords, EltTy.bits .bf16 = 32 ∨ (Rect.block (s := S100000x128) S20000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S20000x128.size a ≤ S100000x128.size a
  hwx0_2 : ∀ i : grid0.Coords, EltTy.bits .f32 = 32 ∨ (Rect.block (s := S100000x128) S20000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S20000x128.size a ≤ S100000x128.size a
  hwx2_0 : ∀ i : grid2.Coords, EltTy.bits .bf16 = 32 ∨ (Rect.block (s := S100000x128) S20000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .bf16 = 32 ∨ (Rect.block (s := S128x128) S128x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S20000x128.size a ≤ S100000x128.size a
  hwx2_2 : ∀ i : grid2.Coords, EltTy.bits .f32 = 32 ∨ (Rect.block (s := S100000x128) S20000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S200000x128.size a
  hwx4_0 : ∀ i : grid4.Coords, EltTy.bits .f32 = 32 ∨ (Rect.block (s := S200000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S200000x128.size a
  hwx4_1 : ∀ i : grid4.Coords, EltTy.bits .f32 = 32 ∨ (Rect.block (s := S200000x128) S10000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S200000x1.size a
  hwx4_2 : ∀ i : grid4.Coords, EltTy.bits .f32 = 32 ∨ (Rect.block (s := S200000x1) S10000x1.size (cc4_transform_2 i) (hinb4_2 i)).WholeWords (EltTy.packing .f32)

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

abbrev win0_0 : Pipeline.Window sig grid0 :=
  Pipeline.Window.ofSpec (Memref.whole main_v30) S20000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S20000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v48) S20000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v50) S20000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v63) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v64) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v74) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v83) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v84) S10000x1.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1000000 : Shape := ⟨2, ![2, 1000000]⟩
abbrev S2x200000 : Shape := ⟨2, ![2, 200000]⟩
abbrev S128x128 : Shape := ⟨2, ![128, 128]⟩
abbrev S128 : Shape := ⟨1, ![128]⟩
abbrev S100000 : Shape := ⟨1, ![100000]⟩
abbrev S1x1000000 : Shape := ⟨2, ![1, 1000000]⟩
abbrev S1000000 : Shape := ⟨1, ![1000000]⟩
abbrev S1100000 : Shape := ⟨1, ![1100000]⟩
abbrev S_ : Shape := ⟨0, ![]⟩
abbrev S1100000x1 : Shape := ⟨2, ![1100000, 1]⟩
abbrev S1100000x128 : Shape := ⟨2, ![1100000, 128]⟩
abbrev S1x128 : Shape := ⟨2, ![1, 128]⟩
abbrev S1x200000 : Shape := ⟨2, ![1, 200000]⟩
abbrev S200000 : Shape := ⟨1, ![200000]⟩
abbrev S200000x1 : Shape := ⟨2, ![200000, 1]⟩
abbrev S200000x128 : Shape := ⟨2, ![200000, 128]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1000000, .i32⟩
  | .hbm, ⟨2, _⟩ => ⟨S2x200000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S100000, .i32⟩
  | .hbm, ⟨8, _⟩ => ⟨S1x1000000, .i32⟩
  | .hbm, ⟨9, _⟩ => ⟨S1000000, .i32⟩
  | .hbm, ⟨10, _⟩ => ⟨S1100000, .i32⟩
  | .hbm, ⟨11, _⟩ => ⟨S1x1000000, .i32⟩
  | .hbm, ⟨12, _⟩ => ⟨S1000000, .i32⟩
  | .hbm, ⟨13, _⟩ => ⟨S1100000, .i32⟩
  | .hbm, ⟨14, _⟩ => ⟨S_, .f32⟩
  | .hbm, ⟨15, _⟩ => ⟨S1100000, .f32⟩
  | .hbm, ⟨16, _⟩ => ⟨S_, .f32⟩
  | .hbm, ⟨17, _⟩ => ⟨S100000, .f32⟩
  | .hbm, ⟨18, _⟩ => ⟨S1100000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1100000, .i32⟩
  | .hbm, ⟨30, _⟩ => ⟨S1100000, .i1⟩
  | .hbm, ⟨31, _⟩ => ⟨S_, .i32⟩
  | .hbm, ⟨32, _⟩ => ⟨S1100000, .i32⟩
  | .hbm, ⟨33, _⟩ => ⟨S1100000, .i32⟩
  | .hbm, ⟨34, _⟩ => ⟨S1100000, .i32⟩
  | .hbm, ⟨35, _⟩ => ⟨S1100000x1, .i32⟩
  | .hbm, ⟨36, _⟩ => ⟨S1100000, .f32⟩
  | .hbm, ⟨37, _⟩ => ⟨S_, .i32⟩
  | .hbm, ⟨38, _⟩ => ⟨S1100000, .i32⟩
  | .hbm, ⟨39, _⟩ => ⟨S1100000, .i1⟩
  | .hbm, ⟨40, _⟩ => ⟨S_, .i32⟩
  | .hbm, ⟨41, _⟩ => ⟨S1100000, .i32⟩
  | .hbm, ⟨42, _⟩ => ⟨S1100000, .i32⟩
  | .hbm, ⟨43, _⟩ => ⟨S1100000, .i32⟩
  | .hbm, ⟨44, _⟩ => ⟨S1100000x1, .i32⟩
  | .hbm, ⟨45, _⟩ => ⟨S1100000, .f32⟩
  | .hbm, ⟨46, _⟩ => ⟨S1100000, .f32⟩
  | .hbm, ⟨47, _⟩ => ⟨S100000x128, .f32⟩
  | .hbm, ⟨48, _⟩ => ⟨S_, .i32⟩
  | .hbm, ⟨49, _⟩ => ⟨S1100000, .i32⟩
  | .hbm, ⟨50, _⟩ => ⟨S1100000, .i1⟩
  | .hbm, ⟨51, _⟩ => ⟨S_, .i32⟩
  | .hbm, ⟨52, _⟩ => ⟨S1100000, .i32⟩
  | .hbm, ⟨53, _⟩ => ⟨S1100000, .i32⟩
  | .hbm, ⟨54, _⟩ => ⟨S1100000, .i32⟩
  | .hbm, ⟨55, _⟩ => ⟨S1100000x1, .i32⟩
  | .hbm, ⟨56, _⟩ => ⟨S1100000x128, .f32⟩
  | .hbm, ⟨57, _⟩ => ⟨S1100000x1, .f32⟩
  | .hbm, ⟨58, _⟩ => ⟨S1100000x128, .f32⟩
  | .hbm, ⟨59, _⟩ => ⟨S1100000x128, .f32⟩
  | .hbm, ⟨60, _⟩ => ⟨S_, .f32⟩
  | .hbm, ⟨61, _⟩ => ⟨S100000x128, .f32⟩
  | .hbm, ⟨62, _⟩ => ⟨S1100000x1, .i32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x128, .f32⟩
  | .hbm, ⟨71, _⟩ => ⟨S_, .i32⟩
  | .hbm, ⟨72, _⟩ => ⟨S1100000, .i32⟩
  | .hbm, ⟨73, _⟩ => ⟨S1100000, .i1⟩
  | .hbm, ⟨74, _⟩ => ⟨S_, .i32⟩
  | .hbm, ⟨75, _⟩ => ⟨S1100000, .i32⟩
  | .hbm, ⟨76, _⟩ => ⟨S1100000, .i32⟩
  | .hbm, ⟨77, _⟩ => ⟨S1100000, .i32⟩
  | .hbm, ⟨78, _⟩ => ⟨S1100000x1, .i32⟩
  | .hbm, ⟨79, _⟩ => ⟨S1100000x128, .f32⟩
  | .hbm, ⟨80, _⟩ => ⟨S1100000x1, .f32⟩
  | .hbm, ⟨81, _⟩ => ⟨S1100000x128, .f32⟩
  | .hbm, ⟨82, _⟩ => ⟨S1100000x128, .f32⟩
  | .hbm, ⟨83, _⟩ => ⟨S_, .f32⟩
  | .hbm, ⟨84, _⟩ => ⟨S100000x128, .f32⟩
  | .hbm, ⟨85, _⟩ => ⟨S1100000x1, .i32⟩
  | .hbm, ⟨86, _⟩ => ⟨S100000x128, .f32⟩
  | .hbm, ⟨87, _⟩ => ⟨S1x128, .f32⟩
  | .hbm, ⟨88, _⟩ => ⟨S100000x128, .f32⟩
  | .hbm, ⟨89, _⟩ => ⟨S100000x128, .f32⟩
  | .hbm, ⟨90, _⟩ => ⟨S1x200000, .i32⟩
  | .hbm, ⟨91, _⟩ => ⟨S200000, .i32⟩
  | .hbm, ⟨92, _⟩ => ⟨S_, .i32⟩
  | .hbm, ⟨93, _⟩ => ⟨S200000, .i32⟩
  | .hbm, ⟨94, _⟩ => ⟨S200000, .i1⟩
  | .hbm, ⟨95, _⟩ => ⟨S_, .i32⟩
  | .hbm, ⟨96, _⟩ => ⟨S200000, .i32⟩
  | .hbm, ⟨97, _⟩ => ⟨S200000, .i32⟩
  | .hbm, ⟨98, _⟩ => ⟨S200000, .i32⟩
  | .hbm, ⟨99, _⟩ => ⟨S200000x1, .i32⟩
  | .hbm, ⟨100, _⟩ => ⟨S200000x128, .f32⟩
  | .hbm, ⟨101, _⟩ => ⟨S1x200000, .i32⟩
  | .hbm, ⟨102, _⟩ => ⟨S200000, .i32⟩
  | .hbm, ⟨103, _⟩ => ⟨S_, .i32⟩
  | .hbm, ⟨104, _⟩ => ⟨S200000, .i32⟩
  | .hbm, ⟨105, _⟩ => ⟨S200000, .i1⟩
  | .hbm, ⟨106, _⟩ => ⟨S_, .i32⟩
  | .hbm, ⟨107, _⟩ => ⟨S200000, .i32⟩
  | .hbm, ⟨108, _⟩ => ⟨S200000, .i32⟩
  | .hbm, ⟨109, _⟩ => ⟨S200000, .i32⟩
  | .hbm, ⟨110, _⟩ => ⟨S200000x1, .i32⟩
  | .hbm, ⟨111, _⟩ => ⟨S200000x128, .f32⟩
  | .hbm, ⟨112, _⟩ => ⟨S200000x128, .f32⟩
  | .hbm, ⟨113, _⟩ => ⟨S_, .f32⟩
  | .hbm, ⟨114, _⟩ => ⟨S200000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v14 : Ref sig .tc := ⟨.hbm, 27, rfl⟩
abbrev main_c : Ref sig .tc := ⟨.hbm, 28, rfl⟩
abbrev main_v15 : Ref sig .tc := ⟨.hbm, 29, rfl⟩
abbrev main_v16 : Ref sig .tc := ⟨.hbm, 30, rfl⟩
abbrev main_c_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_4 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_8 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_call1_cst : Ref sig .tc := ⟨.hbm, 67, rfl⟩
abbrev main_call1_v0 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_12 : Ref sig .tc := ⟨.hbm, 92, rfl⟩
abbrev main_v67 : Ref sig .tc := ⟨.hbm, 93, rfl⟩
abbrev main_v68 : Ref sig .tc := ⟨.hbm, 94, rfl⟩
abbrev main_c_13 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_14 : Ref sig .tc := ⟨.hbm, 103, rfl⟩
abbrev main_v76 : Ref sig .tc := ⟨.hbm, 104, rfl⟩
abbrev main_v77 : Ref sig .tc := ⟨.hbm, 105, rfl⟩
abbrev main_c_15 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_16 : Ref sig .tc := ⟨.hbm, 113, rfl⟩
abbrev main_v84 : Ref sig .tc := ⟨.hbm, 114, rfl⟩

abbrev nD : Nat := 1
abbrev τ : Topo := Topo.v7x

variable {F : FTy → Type} [FloatOps F]

class Facts₀ : Prop where
  slices_S2x1000000_S1x1000000_0_0 : S2x1000000.Slices ![0, 0] S1x1000000
  shapeCasts_S1x1000000_S1000000 : S1x1000000.ShapeCasts S1000000
  concatenates_S1000000_S100000_S1100000_d0 : Shape.Concatenates [S1000000, S100000] S1100000 0
  slices_S2x1000000_S1x1000000_1_0 : S2x1000000.Slices ![1, 0] S1x1000000
  bcast_S_S1100000 : S_.BroadcastsInDim S1100000 (![] : Fin 0 → Fin S1100000.rank)
  bcast_S_S100000 : S_.BroadcastsInDim S100000 (![] : Fin 0 → Fin S100000.rank)
  bcast_S1100000_S1100000x1_0 : S1100000.BroadcastsInDim S1100000x1 (![0] : Fin 1 → Fin S1100000x1.rank)
  bcast_S1100000x1_S1100000x128_0_1 : S1100000x1.BroadcastsInDim S1100000x128 (![0, 1] : Fin 2 → Fin S1100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  reducesTo_S200000x128_S200000_d1 : S200000x128.ReducesTo [1] S200000
  h_S_ : 0 < S_.numel
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x128_S128x128_S100000x128_1_0_0_1_n_n_wf : DotDims.WF S100000x128 S128x128 S100000x128 [1] [0] [0] [1] [] []
  gather_S100000x128_S1100000x1_S1100000x128_1_0_n_n_0_1_1128_wf : GatherDims.WF S100000x128 S1100000x1 S1100000x128 [1] [0] [] [0] [] 1 ![1, 128]
  scatter_S100000x128_S1100000x1_S1100000x128_1_0_0_1_wf : ScatterDims.WF S100000x128 S1100000x1 S1100000x128 [1] [0] [0] 1
  gather_S100000x128_S200000x1_S200000x128_1_0_n_n_0_1_1128_wf : GatherDims.WF S100000x128 S200000x1 S200000x128 [1] [0] [] [0] [] 1 ![1, 128]

variable [Facts₀]

def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1100000x1_S1100000x128_1_0_n_n_0_1_1128 : GatherDims S100000x128 S1100000x1 S1100000x128 where
  offsetDims := [1]
  collapsedSliceDims := [0]
  operandBatchingDims := []
  startIndicesBatchingDims := []
  startIndexMap := [0]
  indexVectorDim := 1
  sliceSizes := ![1, 128]
  wf := gather_S100000x128_S1100000x1_S1100000x128_1_0_n_n_0_1_1128_wf
def scatter_S100000x128_S1100000x1_S1100000x128_1_0_0_1 : ScatterDims S100000x128 S1100000x1 S1100000x128 where
  updateWindowDims := [1]
  insertedWindowDims := [0]
  scatterDimsToOperandDims := [0]
  indexVectorDim := 1
  wf := scatter_S100000x128_S1100000x1_S1100000x128_1_0_0_1_wf
def gather_S100000x128_S200000x1_S200000x128_1_0_n_n_0_1_1128 : GatherDims S100000x128 S200000x1 S200000x128 where
  offsetDims := [1]
  collapsedSliceDims := [0]
  operandBatchingDims := []
  startIndicesBatchingDims := []
  startIndexMap := [0]
  indexVectorDim := 1
  sliceSizes := ![1, 128]
  wf := gather_S100000x128_S200000x1_S200000x128_1_0_n_n_0_1_1128_wf

class Facts : Prop extends Facts₀ where

variable [Facts]
-- ==== Proof.Spec.lean ====
/-
  The four whole-array functions the kernel's five launches compute, entry by entry over the extended reals, at the
  literal shapes of this program: nodes x features [100000, 128], weights [128, 128], a bias row [1, 128], scored pairs
  [200000, 128] and their scores as a column [200000, 1].

  * `mm x w`      entry (r, q) is the sum over k of x (r, k) * w (k, q): the dense layer's product.
  * `addRow a b`  entry (r, q) is a (r, q) + b (0, q): the bias row added to every node's row.
  * `addRowClamp` the same, then the maximum with zero (the word 0x00000000 read as a float).
  * `rowDot p q`  entry (r, 0) is the sum over k of p (r, k) * q (r, k): a pair's two feature rows multiplied and summed.
-/
import Idealize.ShloMosaic.Lib.ValueIdx

noncomputable section

open scoped BigOperators

namespace Cert.Spec

open Idealize.ShloMosaic Idealize.ShloMosaic.ValueIdx

abbrev Nodes : Shape := ⟨2, ![100000, 128]⟩
abbrev Weights : Shape := ⟨2, ![128, 128]⟩
abbrev BiasRow : Shape := ⟨2, ![1, 128]⟩
abbrev Pairs : Shape := ⟨2, ![200000, 128]⟩
abbrev PairCol : Shape := ⟨2, ![200000, 1]⟩

/-- The product of the node rows with the weights: entry (r, q) is the sum over k of x (r, k) * w (k, q). -/
def mm (x : Nodes.Idx → EReal) (w : Weights.Idx → EReal) : Nodes.Idx → EReal :=
  fun i => ∑ k : Fin 128, x (ix2 (⟨(i 0).val, (i 0).isLt⟩ : Fin 100000) k) * w (ix2 k (⟨(i 1).val, (i 1).isLt⟩ : Fin 128))

/-- The bias row added to every node's row: entry (r, q) is a (r, q) + b (0, q). -/
def addRow (a : Nodes.Idx → EReal) (b : BiasRow.Idx → EReal) : Nodes.Idx → EReal :=
  fun i => a i + b (ix2 (⟨0, Nat.one_pos⟩ : Fin 1) (⟨(i 1).val, (i 1).isLt⟩ : Fin 128))

/-- The bias row added, then every entry clamped below at the float zero. -/
def addRowClamp (a : Nodes.Idx → EReal) (b : BiasRow.Idx → EReal) : Nodes.Idx → EReal :=
  fun i => max (addRow a b i) (Ideal.ofBits .f32 0x00000000#32)

/-- A pair's score: entry (r, 0) is the sum over k of p (r, k) * q (r, k). -/
def rowDot (p q : Pairs.Idx → EReal) : PairCol.Idx → EReal :=
  fun i => ∑ k : Fin 128, p (ix2 (⟨(i 0).val, (i 0).isLt⟩ : Fin 200000) k) * q (ix2 (⟨(i 0).val, (i 0).isLt⟩ : Fin 200000) k)

end Cert.Spec

end
-- ==== Proof.Bridge.lean ====
/-
  The five launches' whole-array functions are the reference's own operations at the extended reals.

  * `Spec.mm` of the narrowed operands is the reference's `dot_general`: narrowing a float format is the identity at the
    extended reals, and both sides are the sum over the contracted axis of the products (the reference's by the stage's
    read-at-an-index lemma).
  * `Spec.addRow` of the bias reshaped to a row is the reference's sum with the bias broadcast twice (to a row, then down the
    rows): both read the bias at the entry's column. `Spec.addRowClamp` adds the maximum with the zero splat (the reference's relu).
  * `Spec.rowDot` recast from a column to a vector is the reference's sum over the feature axis of the product, from the
    initial value zero.
-/
import proofs.«137685_j16406775071044_1_alg».proof.Proof.RefRead
import proofs.«137685_j16406775071044_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.ValueIdx

namespace Cert.Bridge

open Cert.ReferenceIdeal Cert.ReferenceIdeal.Gen Cert.ReferenceIdeal.ReadP

/-! ## The dense layer -/

/-- The product of the narrowed node rows and weights is the reference's `dot_general` stage of them. -/
theorem mm_dot (x : (⟨S100000x128, .f32⟩ : BufTy).Contents (Elt Ideal)) (w : (⟨S128x128, .f32⟩ : BufTy).Contents (Elt Ideal))
    (h h' : FTy.bf16.bits < FTy.f32.bits) :
    Cert.Spec.mm (truncf .bf16 x h : FVec Ideal S100000x128 .bf16) (truncf .bf16 w h' : FVec Ideal S128x128 .bf16) = val_main_v30 (F := Ideal) x w := by
  funext i
  rw [val_main_v30_apply]
  unfold Cert.Spec.mm
  refine Finset.sum_congr rfl fun k _ => ?_
  have el : (ix2 (⟨(i 0).val, (i 0).isLt⟩ : Fin 100000) k : Cert.Spec.Nodes.Idx) = lidx_main_v30 i k :=
    funext fun a => by
      match a with
      | ⟨0, _⟩ => rfl
      | ⟨1, _⟩ => rfl
  have er : (ix2 k (⟨(i 1).val, (i 1).isLt⟩ : Fin 128) : Cert.Spec.Weights.Idx) = ridx_main_v30 i k :=
    funext fun a => by
      match a with
      | ⟨0, _⟩ => rfl
      | ⟨1, _⟩ => rfl
  exact congrArg₂ (· * ·) (congrArg x el) (congrArg w er)

theorem mm_first (x0 : (⟨S100000x128, .f32⟩ : BufTy).Contents (Elt Ideal)) (x3 : (⟨S128x128, .f32⟩ : BufTy).Contents (Elt Ideal))
    (h h' : FTy.bf16.bits < FTy.f32.bits) :
    Cert.Spec.mm (truncf .bf16 x0 h : FVec Ideal S100000x128 .bf16) (truncf .bf16 x3 h' : FVec Ideal S128x128 .bf16) = val_main_v30 (F := Ideal) x0 x3 :=
  mm_dot x0 x3 h h'

theorem mm_second (x0 : (⟨S100000x128, .f32⟩ : BufTy).Contents (Elt Ideal)) (x1 : (⟨S2x1000000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (h h' : FTy.bf16.bits < FTy.f32.bits) :
    Cert.Spec.mm (truncf .bf16 (val_main_v47 (F := Ideal) x0 x1 x3 x4) h : FVec Ideal S100000x128 .bf16) (truncf .bf16 x5 h' : FVec Ideal S128x128 .bf16) = val_main_v48 (F := Ideal) x0 x1 x3 x4 x5 :=
  (mm_dot (val_main_v47 (F := Ideal) x0 x1 x3 x4) x5 h h').trans rfl

/-! ## The bias -/

/-- A node row plus the bias reshaped to a row is the reference's sum with the bias broadcast to the whole array. -/
theorem addRow_eq (a : (⟨S100000x128, .f32⟩ : BufTy).Contents (Elt Ideal)) (b : (⟨S128, .f32⟩ : BufTy).Contents (Elt Ideal))
    (hc : (⟨1, ![128]⟩ : Shape).ShapeCasts ⟨2, ![1, 128]⟩) :
    Cert.Spec.addRow a (shapeCast ⟨2, ![1, 128]⟩ b hc) = (addf a (val_main_v45 (F := Ideal) b) : FVec Ideal S100000x128 .f32) := by
  funext i
  unfold Cert.Spec.addRow
  have hs : shapeCast ⟨2, ![1, 128]⟩ b hc (ix2 (⟨0, Nat.one_pos⟩ : Fin 1) (⟨(i 1).val, (i 1).isLt⟩ : Fin 128))
      = val_main_v45 (F := Ideal) b i := by
    rw [val_main_v45_apply, val_main_v44_apply]
    refine shapeCast_apply b hc _ _ ?_
    rw [Shape.rowMajor_val_one, Shape.rowMajor_val_two]
    show (i 1).val = 0 * 128 + (i 1).val
    omega
  rw [hs]
  rfl

/-- The same, clamped below at zero, is the reference's relu of that sum. -/
theorem addRowClamp_eq (a : (⟨S100000x128, .f32⟩ : BufTy).Contents (Elt Ideal)) (b : (⟨S128, .f32⟩ : BufTy).Contents (Elt Ideal))
    (hc : (⟨1, ![128]⟩ : Shape).ShapeCasts ⟨2, ![1, 128]⟩) :
    Cert.Spec.addRowClamp a (shapeCast ⟨2, ![1, 128]⟩ b hc)
      = (maximumf (addf a (val_main_v45 (F := Ideal) b)) (val_main_call1_v0 (F := Ideal)) : FVec Ideal S100000x128 .f32) := by
  funext i
  unfold Cert.Spec.addRowClamp
  rw [addRow_eq]
  show max ((addf a (val_main_v45 (F := Ideal) b) : FVec Ideal S100000x128 .f32) i) (Ideal.ofBits .f32 0x00000000#32)
    = max ((addf a (val_main_v45 (F := Ideal) b) : FVec Ideal S100000x128 .f32) i) (val_main_call1_v0 (F := Ideal) i)
  rw [val_main_call1_v0_apply, val_main_call1_cst_apply]
  rfl

theorem bias_first (x0 : (⟨S100000x128, .f32⟩ : BufTy).Contents (Elt Ideal)) (x1 : (⟨S2x1000000, .i32⟩ : BufTy).Contents (Elt Ideal))
    (x3 : (⟨S128x128, .f32⟩ : BufTy).Contents (Elt Ideal)) (x4 : (⟨S128, .f32⟩ : BufTy).Contents (Elt Ideal))
    (hc : (⟨1, ![128]⟩ : Shape).ShapeCasts ⟨2, ![1, 128]⟩) :
    Cert.Spec.addRowClamp (val_main_v43 (F := Ideal) x0 x1 x3) (shapeCast ⟨2, ![1, 128]⟩ x4 hc) = val_main_v47 (F := Ideal) x0 x1 x3 x4 :=
  (addRowClamp_eq (val_main_v43 (F := Ideal) x0 x1 x3) x4 hc).trans rfl

theorem bias_second (x0 : (⟨S100000x128, .f32⟩ : BufTy).Contents (Elt Ideal)) (x1 : (⟨S2x1000000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (hc : (⟨1, ![128]⟩ : Shape).ShapeCasts ⟨2, ![1, 128]⟩) :
    Cert.Spec.addRow (val_main_v61 (F := Ideal) x0 x1 x3 x4 x5) (shapeCast ⟨2, ![1, 128]⟩ x6 hc) = val_main_v64 (F := Ideal) x0 x1 x3 x4 x5 x6 :=
  (addRow_eq (val_main_v61 (F := Ideal) x0 x1 x3 x4 x5) x6 hc).trans rfl

/-! ## The scores -/

/-- The column of row products recast to a vector is the reference's sum over the features of the entrywise product. -/
theorem rowDot_eq (p q : (⟨S200000x128, .f32⟩ : BufTy).Contents (Elt Ideal))
    (hc : (⟨2, ![200000, 1]⟩ : Shape).ShapeCasts ⟨1, ![200000]⟩) :
    shapeCast ⟨1, ![200000]⟩ (Cert.Spec.rowDot p q) hc
      = (Host.reduceAdd (F := Ideal) (mulf p q) (val_main_cst_16 (F := Ideal)) reducesTo_S200000x128_S200000_d1 h_S_ : FVec Ideal S200000 .f32) := by
  funext i
  have hs : shapeCast ⟨1, ![200000]⟩ (Cert.Spec.rowDot p q) hc i
      = Cert.Spec.rowDot p q (ix2 (⟨(i 0).val, (i 0).isLt⟩ : Fin 200000) (⟨0, Nat.one_pos⟩ : Fin 1)) := by
    refine shapeCast_apply _ hc i _ ?_
    rw [Shape.rowMajor_val_one, Shape.rowMajor_val_two]
    show (i 0).val * 1 + 0 = (i 0).val
    omega
  rw [hs]
  unfold Cert.Spec.rowDot
  simp only [Host.reduceAdd, Ideal.hostReduceAdd_def]
  rw [Ideal.hostReduceAdd_single reducesTo_S200000x128_S200000_d1 (by decide)]
  show _ = Ideal.ofBits .f32 0x00000000#32 + _
  rw [Ideal.ofBits_zero_f32, zero_add]
  show ∑ k : Fin 128, _ = ∑ k : Fin 128, _
  refine Finset.sum_congr rfl fun k _ => ?_
  rw [mulf_apply]
  refine congrArg₂ (· * ·) (congrArg p ?_) (congrArg q ?_) <;>
    exact funext fun a => Fin.ext (by
      match a with
      | ⟨0, _⟩ => rfl
      | ⟨1, _⟩ => rfl)

theorem score (x0 : (⟨S100000x128, .f32⟩ : BufTy).Contents (Elt Ideal)) (x1 : (⟨S2x1000000, .i32⟩ : BufTy).Contents (Elt Ideal))
    (x2 : (⟨S2x200000, .i32⟩ : BufTy).Contents (Elt Ideal))
    (x3 : (⟨S128x128, .f32⟩ : BufTy).Contents (Elt Ideal)) (x4 : (⟨S128, .f32⟩ : BufTy).Contents (Elt Ideal))
    (x5 : (⟨S128x128, .f32⟩ : BufTy).Contents (Elt Ideal)) (x6 : (⟨S128, .f32⟩ : BufTy).Contents (Elt Ideal))
    (hc : (⟨2, ![200000, 1]⟩ : Shape).ShapeCasts ⟨1, ![200000]⟩) :
    shapeCast ⟨1, ![200000]⟩ (Cert.Spec.rowDot (val_main_v73 (F := Ideal) x0 x1 x2 x3 x4 x5 x6) (val_main_v82 (F := Ideal) x0 x1 x2 x3 x4 x5 x6)) hc
      = val_main_v84 (F := Ideal) x0 x1 x2 x3 x4 x5 x6 :=
  (rowDot_eq (val_main_v73 (F := Ideal) x0 x1 x2 x3 x4 x5 x6) (val_main_v82 (F := Ideal) x0 x1 x2 x3 x4 x5 x6) hc).trans rfl

end Cert.Bridge

end
-- ==== Proof.LibPlainDot.lean ====
/-
  Four reads at an index, general in the sizes, for rank-two vectors over any element type (the product at Ideal).

  * A plain product (rows x contraction times contraction x columns, no batch axis) into the zero accumulator, read at
    (r, c), is the sum over the contracted axis of lhs (r, k) * rhs (k, c).
  * A unit-stride slice of a rank-two vector read at (r, c) is the operand at (row offset + r, column offset + c).
  * A one-row vector broadcast down M rows reads its column: (r, c) reads (0, c).
  * A rank-two vector recast with a unit axis in the middle reads the same rows and columns: (r, 0, c) reads (r, c).
-/
import Idealize.ShloMosaic.Lib.Pipeline.Value
import Idealize.ShloMosaic.Lib.ValueIdx
import Idealize.ShloMosaic.PureOps.Ideal.Laws

noncomputable section

namespace Cert.LibPlainDot

open Idealize.ShloMosaic Idealize.ShloMosaic.ValueIdx

/-- A plain M x K by K x N product into the zero accumulator, read at (r, c): the sum over k of lhs (r, k) * rhs (k, c).
    The contraction index, an index of a rank-one shape, is carried to Fin K; the operand indices at (r, c) and k are
    (r, k) and (k, c) coordinate by coordinate. -/
theorem matmul_plain_apply {φ₁ φ₂ : FTy} (M K N : Nat) (lhs : FVec Ideal ⟨2, ![M, K]⟩ φ₁) (rhs : FVec Ideal ⟨2, ![K, N]⟩ φ₂)
    (r : Fin M) (c : Fin N) :
    matmul (DotDims.plain M K N) none lhs rhs (constant ⟨2, ![M, N]⟩ .f32 0x00000000#32) (ix2 r c)
      = ∑ k : Fin K, lhs (ix2 r k) * rhs (ix2 k c) := by
  show FloatOps.matmul (DotDims.plain M K N) none lhs rhs (constant ⟨2, ![M, N]⟩ .f32 0x00000000#32) (ix2 r c) = _
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r c) ((ValueIdx.contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r c) ((ValueIdx.contrEquiv1 (DotDims.plain M K N) K rfl rfl).symm k) = ix2 k c :=
    funext fun a => Fin.ext (by
      match a with
      | ⟨0, _⟩ => exact hk
      | ⟨1, _⟩ => rfl)
  rw [el, er]

/-- A unit-stride slice at offsets (o0, o1) of a rank-two vector, read at (r, c): the operand at (o0 + r, o1 + c). -/
theorem slice2_apply {α : Type} {M N M' N' : Nat} (o0 o1 : Nat) (x : (⟨2, ![M, N]⟩ : Shape).Idx → α)
    (h : (⟨2, ![M, N]⟩ : Shape).Slices ![o0, o1] ⟨2, ![M', N']⟩) (r : Fin M') (c : Fin N')
    (hr : o0 + r.val < M) (hc : o1 + c.val < N) :
    extractStridedSlice ⟨2, ![M', N']⟩ ![o0, o1] x h (ix2 r c) = x (ix2 ⟨o0 + r.val, hr⟩ ⟨o1 + c.val, hc⟩) :=
  extractStridedSlice_apply ![o0, o1] x h (ix2 r c) (ix2 ⟨o0 + r.val, hr⟩ ⟨o1 + c.val, hc⟩) (fun a => match a with
    | ⟨0, _⟩ => rfl
    | ⟨1, _⟩ => rfl)

/-- A one-row vector broadcast down M rows, read at (r, c): the row's entry c. -/
theorem bcastRow_apply {α : Type} {M N : Nat} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 ⟨0, Nat.one_pos⟩ c) :=
  broadcastTo_apply x h (ix2 r c) (ix2 ⟨0, Nat.one_pos⟩ c) (fun a => match a with
    | ⟨0, _⟩ => by show (0 : Nat) = if (1 : Nat) = 1 then 0 else r.val; rw [if_pos rfl]
    | ⟨1, _⟩ => by
        show c.val = if N = 1 then 0 else c.val
        by_cases hN : N = 1
        · rw [if_pos hN]; have := c.isLt; omega
        · rw [if_neg hN])

/-- A rank-two vector recast to rank three with a unit axis in the middle, read at (r, z, c): the operand at (r, c). -/
theorem shapeCast_midUnit_apply {α : Type} {M N : Nat} (x : (⟨2, ![M, N]⟩ : Shape).Idx → α)
    (h : (⟨2, ![M, N]⟩ : Shape).ShapeCasts ⟨3, ![M, 1, N]⟩) (r : Fin M) (z : Fin 1) (c : Fin N) :
    shapeCast ⟨3, ![M, 1, N]⟩ x h (ix3 r z c) = x (ix2 r c) :=
  shapeCast_apply x h (ix3 r z c) (ix2 r c) (by
    rw [Shape.rowMajor_val_two, Shape.rowMajor_val_three]
    have hz : z.val = 0 := by have := z.isLt; omega
    show r.val * N + c.val = (r.val * 1 + z.val) * N + c.val
    rw [hz, Nat.mul_one, Nat.add_zero])

end Cert.LibPlainDot

end
-- ==== Proof.RegionMatmul0.lean ====
/-
  A dense-layer launch read as a whole-array function (pallas_call 0: the first layer's product).

  The launch walks five row blocks of 20000 nodes. At a point the body loads the block of node rows and the whole
  [128, 128] weights, multiplies them into the zero accumulator and stores the block back. At the extended reals the
  stored entry (p, q) is the sum over k of row p's entry k times the weights' entry (k, q), so what point t writes back
  is rows 20000 t … 20000 t + 19999 of `Spec.mm` of the two arrays the launch reads, and the five blocks tile the array.
-/
import proofs.«137685_j16406775071044_1_alg».proof.Proof.Gen.KernelIdeal.Frame
import proofs.«137685_j16406775071044_1_alg».proof.Proof.Spec
import proofs.«137685_j16406775071044_1_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionMatmul0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Launch 0: node rows main_v30 times weights main_v31 -/

/-- The body's stored value at entry (p, q) of the block: the block's row p against column q of the weights. -/
theorem pay0_apply (x0 : FVec Ideal S20000x128 .bf16) (x1 : FVec Ideal S128x128 .bf16) (p : Fin 20000) (q : Fin 128) :
    (k0_pay1 (F := Ideal) x0 x1 (ix2 p q) : EReal) = ∑ k : Fin 128, (x0 (ix2 p k) : EReal) * (x1 (ix2 k q) : EReal) := by
  unfold k0_pay1
  show matmul (F := Ideal) dot_S20000x128_S128x128_S20000x128_1_0_0_1_n_n none (shapeCast S20000x128 x0 shapeCasts_S20000x128_S20000x128)
      (shapeCast S128x128 x1 shapeCasts_S128x128_S128x128) (constant S20000x128 .f32 0x00000000#32) (ix2 p q) = _
  rw [shapeCast_self, shapeCast_self]
  exact Cert.LibPlainDot.matmul_plain_apply 20000 128 128 x0 x1 p q

/-- The printed index maps over the five points: the row and result windows sit at row block t, the weights' window at (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of `Spec.mm` of the two arrays the launch reads. -/
theorem flushed0 (c : Dev nD) (t : Fin cfg0.N) :
    (dat0 (F := Ideal) V c).flushed 2 t
      = ((cfg0.win 2).blk t).view.read (Elt Ideal) (Cert.Spec.mm (V c main_v30) (V c main_v31)) := by
  show (cfg0.win 2).cut (grid0.coords t) ((dat0 (F := Ideal) V c).after 2 t) = _
  rw [after0_2]
  unfold out0_2
  rw [View.canon_unit_zero hz]
  simp only [View.ld_unit_zero (S := S20000x128) hz, View.ld_unit_zero (S := S128x128) hz]
  obtain ⟨e0, e1, e2, e3, e4, e5⟩ := idx_facts0 t
  funext j
  obtain ⟨p, q, rfl⟩ : ∃ (p : Fin 20000) (q : Fin 128), j = ix2 p q := ⟨j 0, j 1, eq_ix2 j⟩
  show k0_pay1 (iblk0 V c 0 t) (iblk0 V c 1 t) (ix2 p q)
    = Cert.Spec.mm (V c main_v30) (V c main_v31) (((cfg0.win 2).blk t).view.emb (ix2 p q))
  rw [pay0_apply]
  unfold Cert.Spec.mm
  refine Finset.sum_congr rfl fun k _ => ?_
  have h0 : iblk0 V c 0 t (ix2 p k)
      = (V c main_v30 : Cert.Spec.Nodes.Idx → EReal) (ix2
          (⟨((((cfg0.win 2).blk t).view.emb (ix2 p q) : Cert.Spec.Nodes.Idx) 0).val,
            ((((cfg0.win 2).blk t).view.emb (ix2 p q) : Cert.Spec.Nodes.Idx) 0).isLt⟩ : Fin 100000) k) := by
    show (V c main_v30 : Cert.Spec.Nodes.Idx → EReal) (((cfg0.win 0).blk t).view.emb (ix2 p k)) = _
    refine congrArg _ (funext fun a => Fin.ext ?_)
    match a with
    | ⟨0, _⟩ => show win0_0.index t (0 : Fin 2) * 20000 + 1 * p.val = win0_2.index t (0 : Fin 2) * 20000 + 1 * p.val; rw [e0, e4]
    | ⟨1, _⟩ => show win0_0.index t (1 : Fin 2) * 128 + 1 * k.val = k.val; rw [e1]; omega
  have h1 : iblk0 V c 1 t (ix2 k q)
      = (V c main_v31 : Cert.Spec.Weights.Idx → EReal) (ix2 k
          (⟨((((cfg0.win 2).blk t).view.emb (ix2 p q) : Cert.Spec.Nodes.Idx) 1).val,
            ((((cfg0.win 2).blk t).view.emb (ix2 p q) : Cert.Spec.Nodes.Idx) 1).isLt⟩ : Fin 128)) := by
    show (V c main_v31 : Cert.Spec.Weights.Idx → EReal) (((cfg0.win 1).blk t).view.emb (ix2 k q)) = _
    refine congrArg _ (funext fun a => Fin.ext ?_)
    match a with
    | ⟨0, _⟩ => show win0_1.index t (0 : Fin 2) * 128 + 1 * k.val = k.val; rw [e2]; omega
    | ⟨1, _⟩ => show win0_1.index t (1 : Fin 2) * 128 + 1 * q.val = win0_2.index t (1 : Fin 2) * 128 + 1 * q.val; rw [e3, e5]
  rw [h0, h1]

/-- An index of the result array is in point t's block iff each coordinate is in the block's range on its axis. -/
theorem mem_blk0 (t : Fin cfg0.N) (i : S100000x128.Idx) :
    i ∈ ((cfg0.win 2).blk t).view.set ↔ ∀ a : Fin 2, win0_2.index t a * S20000x128.size a ≤ (i a).val ∧ (i a).val < win0_2.index t a * S20000x128.size a + S20000x128.size a := by
  show i ∈ ((View.whole main_v32).slice (win0_2.rect t)).set ↔ _
  rw [View.set_slice_whole, Rect.mem_set_unit]
  exact Iff.rfl

/-- Every node row lies in the block of the point its row number divided by 20000 names. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 5 := N_0
  let t : Fin cfg0.N := ⟨(i 0).val / 20000, by rw [hN]; omega⟩
  refine ⟨t, flush0_2 t, ?_⟩
  rw [mem_blk0]
  obtain ⟨-, -, -, -, e4, e5⟩ := idx_facts0 t
  have ht : t.val = (i 0).val / 20000 := rfl
  intro a
  match a with
  | ⟨0, _⟩ => show win0_2.index t (0 : Fin 2) * 20000 ≤ (i 0).val ∧ (i 0).val < win0_2.index t (0 : Fin 2) * 20000 + 20000; rw [e4, ht]; omega
  | ⟨1, _⟩ => show win0_2.index t (1 : Fin 2) * 128 ≤ (i 1).val ∧ (i 1).val < win0_2.index t (1 : Fin 2) * 128 + 128; rw [e5]; omega

/-- After launch 0 the result array is `Spec.mm` of the node rows and the weights as the region found them. -/
theorem final0 (c : Dev nD) :
    (dat0 (F := Ideal) V c).arrAt 2 cfg0.N = Cert.Spec.mm (V c main_v30) (V c main_v31) :=
  (dat0 (F := Ideal) V c).arrAt_eq_of_cover 2 (Cert.Spec.mm (V c main_v30) (V c main_v31))
    (fun t _ => flushed0 V c t) cover0

end Cert.KernelIdeal.RegionMatmul0

end
-- ==== Proof.RegionMatmul2.lean ====
/-
  A dense-layer launch read as a whole-array function (pallas_call 2: the second layer's product).

  The launch walks five row blocks of 20000 nodes. At a point the body loads the block of node rows and the whole
  [128, 128] weights, multiplies them into the zero accumulator and stores the block back. At the extended reals the
  stored entry (p, q) is the sum over k of row p's entry k times the weights' entry (k, q), so what point t writes back
  is rows 20000 t … 20000 t + 19999 of `Spec.mm` of the two arrays the launch reads, and the five blocks tile the array.
-/
import proofs.«137685_j16406775071044_1_alg».proof.Proof.Gen.KernelIdeal.Frame
import proofs.«137685_j16406775071044_1_alg».proof.Proof.Spec
import proofs.«137685_j16406775071044_1_alg».proof.Proof.LibPlainDot
import Idealize.ShloMosaic.Lib.Pipeline.Value
import Idealize.ShloMosaic.Lib.ValueIdx

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionMatmul2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Launch 2: node rows main_v48 times weights main_v49 -/

/-- The body's stored value at entry (p, q) of the block: the block's row p against column q of the weights. -/
theorem pay2_apply (x0 : FVec Ideal S20000x128 .bf16) (x1 : FVec Ideal S128x128 .bf16) (p : Fin 20000) (q : Fin 128) :
    (k2_pay1 (F := Ideal) x0 x1 (ix2 p q) : EReal) = ∑ k : Fin 128, (x0 (ix2 p k) : EReal) * (x1 (ix2 k q) : EReal) := by
  unfold k2_pay1
  show matmul (F := Ideal) dot_S20000x128_S128x128_S20000x128_1_0_0_1_n_n none (shapeCast S20000x128 x0 shapeCasts_S20000x128_S20000x128)
      (shapeCast S128x128 x1 shapeCasts_S128x128_S128x128) (constant S20000x128 .f32 0x00000000#32) (ix2 p q) = _
  rw [shapeCast_self, shapeCast_self]
  exact Cert.LibPlainDot.matmul_plain_apply 20000 128 128 x0 x1 p q

/-- The printed index maps over the five points: the row and result windows sit at row block t, the weights' window at (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of `Spec.mm` of the two arrays the launch reads. -/
theorem flushed2 (c : Dev nD) (t : Fin cfg2.N) :
    (dat2 (F := Ideal) V c).flushed 2 t
      = ((cfg2.win 2).blk t).view.read (Elt Ideal) (Cert.Spec.mm (V c main_v48) (V c main_v49)) := by
  show (cfg2.win 2).cut (grid2.coords t) ((dat2 (F := Ideal) V c).after 2 t) = _
  rw [after2_2]
  unfold out2_2
  rw [View.canon_unit_zero hz]
  simp only [View.ld_unit_zero (S := S20000x128) hz, View.ld_unit_zero (S := S128x128) hz]
  obtain ⟨e0, e1, e2, e3, e4, e5⟩ := idx_facts2 t
  funext j
  obtain ⟨p, q, rfl⟩ : ∃ (p : Fin 20000) (q : Fin 128), j = ix2 p q := ⟨j 0, j 1, eq_ix2 j⟩
  show k2_pay1 (iblk2 V c 0 t) (iblk2 V c 1 t) (ix2 p q)
    = Cert.Spec.mm (V c main_v48) (V c main_v49) (((cfg2.win 2).blk t).view.emb (ix2 p q))
  rw [pay2_apply]
  unfold Cert.Spec.mm
  refine Finset.sum_congr rfl fun k _ => ?_
  have h0 : iblk2 V c 0 t (ix2 p k)
      = (V c main_v48 : Cert.Spec.Nodes.Idx → EReal) (ix2
          (⟨((((cfg2.win 2).blk t).view.emb (ix2 p q) : Cert.Spec.Nodes.Idx) 0).val,
            ((((cfg2.win 2).blk t).view.emb (ix2 p q) : Cert.Spec.Nodes.Idx) 0).isLt⟩ : Fin 100000) k) := by
    show (V c main_v48 : Cert.Spec.Nodes.Idx → EReal) (((cfg2.win 0).blk t).view.emb (ix2 p k)) = _
    refine congrArg _ (funext fun a => Fin.ext ?_)
    match a with
    | ⟨0, _⟩ => show win2_0.index t (0 : Fin 2) * 20000 + 1 * p.val = win2_2.index t (0 : Fin 2) * 20000 + 1 * p.val; rw [e0, e4]
    | ⟨1, _⟩ => show win2_0.index t (1 : Fin 2) * 128 + 1 * k.val = k.val; rw [e1]; omega
  have h1 : iblk2 V c 1 t (ix2 k q)
      = (V c main_v49 : Cert.Spec.Weights.Idx → EReal) (ix2 k
          (⟨((((cfg2.win 2).blk t).view.emb (ix2 p q) : Cert.Spec.Nodes.Idx) 1).val,
            ((((cfg2.win 2).blk t).view.emb (ix2 p q) : Cert.Spec.Nodes.Idx) 1).isLt⟩ : Fin 128)) := by
    show (V c main_v49 : Cert.Spec.Weights.Idx → EReal) (((cfg2.win 1).blk t).view.emb (ix2 k q)) = _
    refine congrArg _ (funext fun a => Fin.ext ?_)
    match a with
    | ⟨0, _⟩ => show win2_1.index t (0 : Fin 2) * 128 + 1 * k.val = k.val; rw [e2]; omega
    | ⟨1, _⟩ => show win2_1.index t (1 : Fin 2) * 128 + 1 * q.val = win2_2.index t (1 : Fin 2) * 128 + 1 * q.val; rw [e3, e5]
  rw [h0, h1]

/-- An index of the result array is in point t's block iff each coordinate is in the block's range on its axis. -/
theorem mem_blk2 (t : Fin cfg2.N) (i : S100000x128.Idx) :
    i ∈ ((cfg2.win 2).blk t).view.set ↔ ∀ a : Fin 2, win2_2.index t a * S20000x128.size a ≤ (i a).val ∧ (i a).val < win2_2.index t a * S20000x128.size a + S20000x128.size a := by
  show i ∈ ((View.whole main_v50).slice (win2_2.rect t)).set ↔ _
  rw [View.set_slice_whole, Rect.mem_set_unit]
  exact Iff.rfl

/-- Every node row lies in the block of the point its row number divided by 20000 names. -/
theorem cover2 (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 5 := N_2
  let t : Fin cfg2.N := ⟨(i 0).val / 20000, by rw [hN]; omega⟩
  refine ⟨t, flush2_2 t, ?_⟩
  rw [mem_blk2]
  obtain ⟨-, -, -, -, e4, e5⟩ := idx_facts2 t
  have ht : t.val = (i 0).val / 20000 := rfl
  intro a
  match a with
  | ⟨0, _⟩ => show win2_2.index t (0 : Fin 2) * 20000 ≤ (i 0).val ∧ (i 0).val < win2_2.index t (0 : Fin 2) * 20000 + 20000; rw [e4, ht]; omega
  | ⟨1, _⟩ => show win2_2.index t (1 : Fin 2) * 128 ≤ (i 1).val ∧ (i 1).val < win2_2.index t (1 : Fin 2) * 128 + 128; rw [e5]; omega

/-- After launch 2 the result array is `Spec.mm` of the node rows and the weights as the region found them. -/
theorem final2 (c : Dev nD) :
    (dat2 (F := Ideal) V c).arrAt 2 cfg2.N = Cert.Spec.mm (V c main_v48) (V c main_v49) :=
  (dat2 (F := Ideal) V c).arrAt_eq_of_cover 2 (Cert.Spec.mm (V c main_v48) (V c main_v49))
    (fun t _ => flushed2 V c t) cover2

end Cert.KernelIdeal.RegionMatmul2

end
-- ==== Proof.RegionBias.lean ====
/-
  The two bias launches (pallas_calls 1 and 3) read as whole-array functions.

  Each launch walks ten row blocks of 10000 nodes. At a point the body loads the block of the aggregated features and the one
  bias row, adds the row to every row of the block (launch 1 then clamps below at zero) and stores the block back. So what
  point t writes back is rows 10000 t … 10000 t + 9999 of ONE function of the two arrays the launch reads, and the ten
  blocks tile the array: after the launch the result array is `Spec.addRowClamp` (launch 1) or `Spec.addRow` (launch 3)
  of the aggregated features and the bias row, as the region found them.
-/
import proofs.«137685_j16406775071044_1_alg».proof.Proof.Gen.KernelIdeal.Frame
import proofs.«137685_j16406775071044_1_alg».proof.Proof.Spec
import proofs.«137685_j16406775071044_1_alg».proof.Proof.LibPlainDot
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RegionBias

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Launch 1: bias, then the clamp at zero -/

/-- The body's stored value at entry (p, q) of the block: the block's entry plus the bias row's entry q, clamped at zero. -/
theorem pay1_apply (x0 : Vec Ideal S10000x128 .f32) (x1 : Vec Ideal S1x128 .f32) (p : Fin 10000) (q : Fin 128) :
    k1_pay1 x0 x1 (ix2 p q) = max (x0 (ix2 p q) + x1 (ix2 (⟨0, Nat.one_pos⟩ : Fin 1) q)) (Ideal.ofBits .f32 0x00000000#32) := by
  unfold k1_pay1
  show max ((shapeCast S10000x128 x0 shapeCasts_S10000x128_S10000x128) (ix2 p q)
      + (broadcastTo S10000x128 (shapeCast S1x128 x1 shapeCasts_S1x128_S1x128) broadcasts_S1x128_S10000x128) (ix2 p q)) _ = _
  rw [shapeCast_self, shapeCast_self, Cert.LibPlainDot.bcastRow_apply]
  rfl

/-- The printed index maps over the ten points: the feature and result windows sit at row block t, the bias row's window at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of `Spec.addRowClamp` of the two arrays the launch reads. -/
theorem flushed1 (c : Dev nD) (t : Fin cfg1.N) :
    (dat1 (F := Ideal) V c).flushed 2 t
      = ((cfg1.win 2).blk t).view.read (Elt Ideal) (Cert.Spec.addRowClamp (V c main_v45) (V c main_v46)) := by
  show (cfg1.win 2).cut (grid1.coords t) ((dat1 (F := Ideal) V c).after 2 t) = _
  rw [after1_2]
  unfold out1_2
  rw [View.canon_unit_zero hz]
  simp only [View.ld_unit_zero (S := S10000x128) hz, View.ld_unit_zero (S := S1x128) hz]
  obtain ⟨e0, e1, e2, e3, e4, e5⟩ := idx_facts1 t
  funext j
  obtain ⟨p, q, rfl⟩ : ∃ (p : Fin 10000) (q : Fin 128), j = ix2 p q := ⟨j 0, j 1, eq_ix2 j⟩
  show k1_pay1 (iblk1 V c 0 t) (iblk1 V c 1 t) (ix2 p q)
    = Cert.Spec.addRowClamp (V c main_v45) (V c main_v46) (((cfg1.win 2).blk t).view.emb (ix2 p q))
  rw [pay1_apply]
  have h0 : iblk1 V c 0 t (ix2 p q) = (V c main_v45 : Cert.Spec.Nodes.Idx → EReal) (((cfg1.win 2).blk t).view.emb (ix2 p q)) := by
    show (V c main_v45 : Cert.Spec.Nodes.Idx → EReal) (((cfg1.win 0).blk t).view.emb (ix2 p q)) = _
    refine congrArg _ (funext fun a => Fin.ext ?_)
    match a with
    | ⟨0, _⟩ => show win1_0.index t (0 : Fin 2) * 10000 + 1 * p.val = win1_2.index t (0 : Fin 2) * 10000 + 1 * p.val; rw [e0, e4]
    | ⟨1, _⟩ => show win1_0.index t (1 : Fin 2) * 128 + 1 * q.val = win1_2.index t (1 : Fin 2) * 128 + 1 * q.val; rw [e1, e5]
  have h1 : iblk1 V c 1 t (ix2 (⟨0, Nat.one_pos⟩ : Fin 1) q)
      = (V c main_v46 : Cert.Spec.BiasRow.Idx → EReal) (ix2 (⟨0, Nat.one_pos⟩ : Fin 1)
          (⟨((((cfg1.win 2).blk t).view.emb (ix2 p q) : Cert.Spec.Nodes.Idx) 1).val,
            ((((cfg1.win 2).blk t).view.emb (ix2 p q) : Cert.Spec.Nodes.Idx) 1).isLt⟩ : Fin 128)) := by
    show (V c main_v46 : Cert.Spec.BiasRow.Idx → EReal) (((cfg1.win 1).blk t).view.emb (ix2 (⟨0, Nat.one_pos⟩ : Fin 1) q)) = _
    refine congrArg _ (funext fun a => Fin.ext ?_)
    match a with
    | ⟨0, _⟩ => show win1_1.index t (0 : Fin 2) * 1 + 1 * 0 = 0; rw [e2]
    | ⟨1, _⟩ => show win1_1.index t (1 : Fin 2) * 128 + 1 * q.val = win1_2.index t (1 : Fin 2) * 128 + 1 * q.val; rw [e3, e5]
  rw [h0, h1]
  rfl

/-- An index of the result array is in point t's block iff each coordinate is in the block's range on its axis. -/
theorem mem_blk1 (t : Fin cfg1.N) (i : S100000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v47).slice (win1_2.rect t)).set ↔ _
  rw [View.set_slice_whole, Rect.mem_set_unit]
  exact Iff.rfl

/-- Every node row lies in the block of the point its row number divided by 10000 names. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 10 := N_1
  let t : Fin cfg1.N := ⟨(i 0).val / 10000, by rw [hN]; omega⟩
  refine ⟨t, flush1_2 t, ?_⟩
  rw [mem_blk1]
  obtain ⟨-, -, -, -, e4, e5⟩ := idx_facts1 t
  have ht : t.val = (i 0).val / 10000 := rfl
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 128 ≤ (i 1).val ∧ (i 1).val < win1_2.index t (1 : Fin 2) * 128 + 128; rw [e5]; omega

/-- After launch 1 the result array is `Spec.addRowClamp` of the aggregated features and the bias row as the region found them. -/
theorem final1 (c : Dev nD) :
    (dat1 (F := Ideal) V c).arrAt 2 cfg1.N = Cert.Spec.addRowClamp (V c main_v45) (V c main_v46) :=
  (dat1 (F := Ideal) V c).arrAt_eq_of_cover 2 (Cert.Spec.addRowClamp (V c main_v45) (V c main_v46))
    (fun t _ => flushed1 V c t) cover1

/-! ## Launch 3: bias only -/

/-- The body's stored value at entry (p, q) of the block: the block's entry plus the bias row's entry q. -/
theorem pay3_apply (x0 : Vec Ideal S10000x128 .f32) (x1 : Vec Ideal S1x128 .f32) (p : Fin 10000) (q : Fin 128) :
    k3_pay1 x0 x1 (ix2 p q) = x0 (ix2 p q) + x1 (ix2 (⟨0, Nat.one_pos⟩ : Fin 1) q) := by
  unfold k3_pay1
  show (shapeCast S10000x128 x0 shapeCasts_S10000x128_S10000x128) (ix2 p q)
      + (broadcastTo S10000x128 (shapeCast S1x128 x1 shapeCasts_S1x128_S1x128) broadcasts_S1x128_S10000x128) (ix2 p q) = _
  rw [shapeCast_self, shapeCast_self, Cert.LibPlainDot.bcastRow_apply]

/-- The printed index maps over the ten points, as for launch 1. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of `Spec.addRow` of the two arrays the launch reads. -/
theorem flushed3 (c : Dev nD) (t : Fin cfg3.N) :
    (dat3 (F := Ideal) V c).flushed 2 t
      = ((cfg3.win 2).blk t).view.read (Elt Ideal) (Cert.Spec.addRow (V c main_v63) (V c main_v64)) := by
  show (cfg3.win 2).cut (grid3.coords t) ((dat3 (F := Ideal) V c).after 2 t) = _
  rw [after3_2]
  unfold out3_2
  rw [View.canon_unit_zero hz]
  simp only [View.ld_unit_zero (S := S10000x128) hz, View.ld_unit_zero (S := S1x128) hz]
  obtain ⟨e0, e1, e2, e3, e4, e5⟩ := idx_facts3 t
  funext j
  obtain ⟨p, q, rfl⟩ : ∃ (p : Fin 10000) (q : Fin 128), j = ix2 p q := ⟨j 0, j 1, eq_ix2 j⟩
  show k3_pay1 (iblk3 V c 0 t) (iblk3 V c 1 t) (ix2 p q)
    = Cert.Spec.addRow (V c main_v63) (V c main_v64) (((cfg3.win 2).blk t).view.emb (ix2 p q))
  rw [pay3_apply]
  have h0 : iblk3 V c 0 t (ix2 p q) = (V c main_v63 : Cert.Spec.Nodes.Idx → EReal) (((cfg3.win 2).blk t).view.emb (ix2 p q)) := by
    show (V c main_v63 : Cert.Spec.Nodes.Idx → EReal) (((cfg3.win 0).blk t).view.emb (ix2 p q)) = _
    refine congrArg _ (funext fun a => Fin.ext ?_)
    match a with
    | ⟨0, _⟩ => show win3_0.index t (0 : Fin 2) * 10000 + 1 * p.val = win3_2.index t (0 : Fin 2) * 10000 + 1 * p.val; rw [e0, e4]
    | ⟨1, _⟩ => show win3_0.index t (1 : Fin 2) * 128 + 1 * q.val = win3_2.index t (1 : Fin 2) * 128 + 1 * q.val; rw [e1, e5]
  have h1 : iblk3 V c 1 t (ix2 (⟨0, Nat.one_pos⟩ : Fin 1) q)
      = (V c main_v64 : Cert.Spec.BiasRow.Idx → EReal) (ix2 (⟨0, Nat.one_pos⟩ : Fin 1)
          (⟨((((cfg3.win 2).blk t).view.emb (ix2 p q) : Cert.Spec.Nodes.Idx) 1).val,
            ((((cfg3.win 2).blk t).view.emb (ix2 p q) : Cert.Spec.Nodes.Idx) 1).isLt⟩ : Fin 128)) := by
    show (V c main_v64 : Cert.Spec.BiasRow.Idx → EReal) (((cfg3.win 1).blk t).view.emb (ix2 (⟨0, Nat.one_pos⟩ : Fin 1) q)) = _
    refine congrArg _ (funext fun a => Fin.ext ?_)
    match a with
    | ⟨0, _⟩ => show win3_1.index t (0 : Fin 2) * 1 + 1 * 0 = 0; rw [e2]
    | ⟨1, _⟩ => show win3_1.index t (1 : Fin 2) * 128 + 1 * q.val = win3_2.index t (1 : Fin 2) * 128 + 1 * q.val; rw [e3, e5]
  rw [h0, h1]
  rfl

/-- An index of the result array is in point t's block iff each coordinate is in the block's range on its axis. -/
theorem mem_blk3 (t : Fin cfg3.N) (i : S100000x128.Idx) :
    i ∈ ((cfg3.win 2).blk t).view.set ↔ ∀ a : Fin 2, win3_2.index t a * S10000x128.size a ≤ (i a).val ∧ (i a).val < win3_2.index t a * S10000x128.size a + S10000x128.size a := by
  show i ∈ ((View.whole main_v65).slice (win3_2.rect t)).set ↔ _
  rw [View.set_slice_whole, Rect.mem_set_unit]
  exact Iff.rfl

/-- Every node row lies in the block of the point its row number divided by 10000 names. -/
theorem cover3 (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 10 := N_3
  let t : Fin cfg3.N := ⟨(i 0).val / 10000, by rw [hN]; omega⟩
  refine ⟨t, flush3_2 t, ?_⟩
  rw [mem_blk3]
  obtain ⟨-, -, -, -, e4, e5⟩ := idx_facts3 t
  have ht : t.val = (i 0).val / 10000 := rfl
  intro a
  match a with
  | ⟨0, _⟩ => show win3_2.index t (0 : Fin 2) * 10000 ≤ (i 0).val ∧ (i 0).val < win3_2.index t (0 : Fin 2) * 10000 + 10000; rw [e4, ht]; omega
  | ⟨1, _⟩ => show win3_2.index t (1 : Fin 2) * 128 ≤ (i 1).val ∧ (i 1).val < win3_2.index t (1 : Fin 2) * 128 + 128; rw [e5]; omega

/-- After launch 3 the result array is `Spec.addRow` of the aggregated features and the bias row as the region found them. -/
theorem final3 (c : Dev nD) :
    (dat3 (F := Ideal) V c).arrAt 2 cfg3.N = Cert.Spec.addRow (V c main_v63) (V c main_v64) :=
  (dat3 (F := Ideal) V c).arrAt_eq_of_cover 2 (Cert.Spec.addRow (V c main_v63) (V c main_v64))
    (fun t _ => flushed3 V c t) cover3

end Cert.KernelIdeal.RegionBias

end
-- ==== Proof.RegionScore.lean ====
/-
  The scoring launch (pallas_call 4) read as a whole-array function.

  The launch walks twenty row blocks of 10000 scored pairs. At a point the body loads the block of first-endpoint rows and the
  block of second-endpoint rows, multiplies them entry by entry, sums each row over its 128 features and stores the sums
  as a column. At the extended reals the stored entry (p, 0) is the sum over k of the two rows' entries k multiplied, so
  what point t writes back is rows 10000 t … 10000 t + 9999 of `Spec.rowDot` of the two arrays the launch reads, and the
  twenty blocks tile the column.
-/
import proofs.«137685_j16406775071044_1_alg».proof.Proof.Gen.KernelIdeal.Frame
import proofs.«137685_j16406775071044_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.RegionScore

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The body's stored value at entry (p, 0) of the column block: the two blocks' rows p multiplied entry by entry and summed. -/
theorem pay4_apply (x0 x1 : FVec Ideal S10000x128 .f32) (p : Fin 10000) (z : Fin 1) :
    k4_pay1 x0 x1 (ix2 p z) = ∑ k : Fin 128, x0 (ix2 p k) * x1 (ix2 p k) := by
  unfold k4_pay1
  show shapeCast S10000x1 (multiReduction (F := Ideal) .add [1] S10000
      (mulf (shapeCast S10000x128 x0 shapeCasts_S10000x128_S10000x128) (shapeCast S10000x128 x1 shapeCasts_S10000x128_S10000x128))
      0x00000000#32 reduces_S10000x128_S10000 (.inl rfl) rfl) shapeCasts_S10000_S10000x1 (ix2 p z) = _
  rw [shapeCast_self, shapeCast_self]
  rw [shapeCast_apply _ shapeCasts_S10000_S10000x1 (ix2 p z) (ix1 p) (by
    rw [Shape.rowMajor_val_one, Shape.rowMajor_val_two]
    have hz0 : z.val = 0 := by have := z.isLt; omega
    show p.val = p.val * 1 + z.val
    omega)]
  refine (Ideal.multiReduction_add_single (mulf x0 x1) 0x00000000#32 reduces_S10000x128_S10000 (.inl rfl) rfl (ix1 p)).trans ?_
  show ∑ k : Fin 128, _ = _
  refine Finset.sum_congr rfl fun k _ => ?_
  have hl : reduces_S10000x128_S10000.lift (ix1 p) k = ix2 p k :=
    funext fun a => Fin.ext (by
      match a with
      | ⟨0, _⟩ => rfl
      | ⟨1, _⟩ => rfl)
  rw [hl]
  rfl

/-- The printed index maps over the twenty points: all three windows sit at row block t. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- What point t writes back is block t of `Spec.rowDot` of the two arrays the launch reads. -/
theorem flushed4 (c : Dev nD) (t : Fin cfg4.N) :
    (dat4 (F := Ideal) V c).flushed 2 t
      = ((cfg4.win 2).blk t).view.read (Elt Ideal) (Cert.Spec.rowDot (V c main_v74) (V c main_v83)) := by
  show (cfg4.win 2).cut (grid4.coords t) ((dat4 (F := Ideal) V c).after 2 t) = _
  rw [after4_2]
  unfold out4_2
  rw [View.canon_unit_zero hz]
  simp only [View.ld_unit_zero (S := S10000x128) hz]
  obtain ⟨e0, e1, e2, e3, e4, e5⟩ := idx_facts4 t
  funext j
  obtain ⟨p, z, rfl⟩ : ∃ (p : Fin 10000) (z : Fin 1), j = ix2 p z := ⟨j 0, j 1, eq_ix2 j⟩
  show k4_pay1 (iblk4 V c 0 t) (iblk4 V c 1 t) (ix2 p z)
    = Cert.Spec.rowDot (V c main_v74) (V c main_v83) (((cfg4.win 2).blk t).view.emb (ix2 p z))
  rw [pay4_apply]
  unfold Cert.Spec.rowDot
  refine Finset.sum_congr rfl fun k _ => ?_
  have h0 : iblk4 V c 0 t (ix2 p k)
      = (V c main_v74 : Cert.Spec.Pairs.Idx → EReal) (ix2
          (⟨((((cfg4.win 2).blk t).view.emb (ix2 p z) : Cert.Spec.PairCol.Idx) 0).val,
            ((((cfg4.win 2).blk t).view.emb (ix2 p z) : Cert.Spec.PairCol.Idx) 0).isLt⟩ : Fin 200000) k) := by
    show (V c main_v74 : Cert.Spec.Pairs.Idx → EReal) (((cfg4.win 0).blk t).view.emb (ix2 p k)) = _
    refine congrArg _ (funext fun a => Fin.ext ?_)
    match a with
    | ⟨0, _⟩ => show win4_0.index t (0 : Fin 2) * 10000 + 1 * p.val = win4_2.index t (0 : Fin 2) * 10000 + 1 * p.val; rw [e0, e4]
    | ⟨1, _⟩ => show win4_0.index t (1 : Fin 2) * 128 + 1 * k.val = k.val; rw [e1]; omega
  have h1 : iblk4 V c 1 t (ix2 p k)
      = (V c main_v83 : Cert.Spec.Pairs.Idx → EReal) (ix2
          (⟨((((cfg4.win 2).blk t).view.emb (ix2 p z) : Cert.Spec.PairCol.Idx) 0).val,
            ((((cfg4.win 2).blk t).view.emb (ix2 p z) : Cert.Spec.PairCol.Idx) 0).isLt⟩ : Fin 200000) k) := by
    show (V c main_v83 : Cert.Spec.Pairs.Idx → EReal) (((cfg4.win 1).blk t).view.emb (ix2 p k)) = _
    refine congrArg _ (funext fun a => Fin.ext ?_)
    match a with
    | ⟨0, _⟩ => show win4_1.index t (0 : Fin 2) * 10000 + 1 * p.val = win4_2.index t (0 : Fin 2) * 10000 + 1 * p.val; rw [e2, e4]
    | ⟨1, _⟩ => show win4_1.index t (1 : Fin 2) * 128 + 1 * k.val = k.val; rw [e3]; omega
  rw [h0, h1]

/-- An index of the result column is in point t's block iff each coordinate is in the block's range on its axis. -/
theorem mem_blk4 (t : Fin cfg4.N) (i : S200000x1.Idx) :
    i ∈ ((cfg4.win 2).blk t).view.set ↔ ∀ a : Fin 2, win4_2.index t a * S10000x1.size a ≤ (i a).val ∧ (i a).val < win4_2.index t a * S10000x1.size a + S10000x1.size a := by
  show i ∈ ((View.whole main_v84).slice (win4_2.rect t)).set ↔ _
  rw [View.set_slice_whole, Rect.mem_set_unit]
  exact Iff.rfl

/-- Every pair lies in the block of the point its number divided by 10000 names. -/
theorem cover4 (i : S200000x1.Idx) : ∃ t : Fin cfg4.N, (cfg4.win 2).flush t = true ∧ i ∈ ((cfg4.win 2).blk t).view.set := by
  have hi0 : (i 0).val < 200000 := (i 0).isLt
  have hi1 : (i 1).val < 1 := (i 1).isLt
  have hN : cfg4.N = 20 := N_4
  let t : Fin cfg4.N := ⟨(i 0).val / 10000, by rw [hN]; omega⟩
  refine ⟨t, flush4_2 t, ?_⟩
  rw [mem_blk4]
  obtain ⟨-, -, -, -, e4, e5⟩ := idx_facts4 t
  have ht : t.val = (i 0).val / 10000 := rfl
  intro a
  match a with
  | ⟨0, _⟩ => show win4_2.index t (0 : Fin 2) * 10000 ≤ (i 0).val ∧ (i 0).val < win4_2.index t (0 : Fin 2) * 10000 + 10000; rw [e4, ht]; omega
  | ⟨1, _⟩ => show win4_2.index t (1 : Fin 2) * 1 ≤ (i 1).val ∧ (i 1).val < win4_2.index t (1 : Fin 2) * 1 + 1; rw [e5]; omega

/-- After launch 4 the result column is `Spec.rowDot` of the two endpoint arrays as the region found them. -/
theorem final4 (c : Dev nD) :
    (dat4 (F := Ideal) V c).arrAt 2 cfg4.N = Cert.Spec.rowDot (V c main_v74) (V c main_v83) :=
  (dat4 (F := Ideal) V c).arrAt_eq_of_cover 2 (Cert.Spec.rowDot (V c main_v74) (V c main_v83))
    (fun t _ => flushed4 V c t) cover4

end Cert.KernelIdeal.RegionScore

end
-- ==== Proof.Chain.lean ====
/-
  The kernel's program read from its launch memory to its result, one stretch at a time.

  The generated frame names the TensorCore's buffer contents at every boundary between a stretch of host operations and a
  launch: a fold W0, W1, …, W13 from the launch memory. Here each buffer a later stretch reads is followed through that fold
  and stated as the reference's own stage function (the generated read-at-an-index module names one per operation) of the
  seven arguments as launched:

  * the host operations that build the edge lists with self loops, the degree normalisation and the edge weights are the
    same operations in both programs, so a stretch's results are the reference's stages by unfolding both;
  * a buffer no operation of a stretch writes keeps its contents across it, and a launch changes only its windows' arrays;
  * each launch's result array is its whole-array function (the Region modules) of the arrays it found, which the Bridge module
    identifies with the reference's dense product, bias (and clamp), and row sum.

  The last statement, `result`, says the result buffer at the last boundary is the reference's result stage of the arguments.
-/
import proofs.«137685_j16406775071044_1_alg».proof.Proof.Gen.KernelIdeal.Frame
import proofs.«137685_j16406775071044_1_alg».proof.Proof.RefRead
import proofs.«137685_j16406775071044_1_alg».proof.Proof.Spec
import proofs.«137685_j16406775071044_1_alg».proof.Proof.Bridge
import proofs.«137685_j16406775071044_1_alg».proof.Proof.RegionMatmul0
import proofs.«137685_j16406775071044_1_alg».proof.Proof.RegionMatmul2
import proofs.«137685_j16406775071044_1_alg».proof.Proof.RegionBias
import proofs.«137685_j16406775071044_1_alg».proof.Proof.RegionScore
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Chain

open Cert.KernelIdeal Cert.KernelIdeal.Gen
open Cert.ReferenceIdeal.ReadP

/-! ## One stretch of host operations at a time, from ANY entry contents and at any float instance

Each lemma reads one result buffer of one stretch: if the buffers the stretch reads hold the reference's stages (the
hypotheses), the result buffer holds the reference's next stage. Both sides are the same operations on the same values, so
each closes by unfolding both. They are stated for every float instance: nothing here depends on what a float is. -/

section Stretches

variable {F : FTy → Type} [FloatOps F] (Wp : Valuation τ sig (Elt F))

theorem stretch0_src (x1 : (⟨Cert.ReferenceIdeal.S2x1000000, .i32⟩ : BufTy).Contents (Elt F)) (h1 : Wp (Proc.devRef .tc main_arg1) = x1) :
    StableHlo.after hostOps0 Wp (Proc.devRef .tc main_v5) = val_main_v3 (F := F) x1 := by
  after_results
  rw [h1]; rfl
theorem stretch0_dst (x1 : (⟨Cert.ReferenceIdeal.S2x1000000, .i32⟩ : BufTy).Contents (Elt F)) (h1 : Wp (Proc.devRef .tc main_arg1) = x1) :
    StableHlo.after hostOps0 Wp (Proc.devRef .tc main_v6) = val_main_v6 (F := F) x1 := by
  after_results
  rw [h1]; rfl
theorem stretch0_pos (x1 : (⟨Cert.ReferenceIdeal.S2x1000000, .i32⟩ : BufTy).Contents (Elt F)) (h1 : Wp (Proc.devRef .tc main_arg1) = x1) :
    StableHlo.after hostOps0 Wp (Proc.devRef .tc main_v12) = val_main_v12 (F := F) x1 := by
  after_results
  rw [h1]; rfl
theorem stretch0_rsq (x1 : (⟨Cert.ReferenceIdeal.S2x1000000, .i32⟩ : BufTy).Contents (Elt F)) (h1 : Wp (Proc.devRef .tc main_arg1) = x1) :
    StableHlo.after hostOps0 Wp (Proc.devRef .tc main_v13) = val_main_v13 (F := F) x1 := by
  after_results
  rw [h1]; rfl
theorem stretch0_zero : StableHlo.after hostOps0 Wp (Proc.devRef .tc main_cst_2) = val_main_cst_2 (F := F) := by
  after_results
  rfl

theorem stretch01_dinv (x1 : (⟨Cert.ReferenceIdeal.S2x1000000, .i32⟩ : BufTy).Contents (Elt F))
    (h12 : Wp (Proc.devRef .tc main_v12) = val_main_v12 (F := F) x1) (h13 : Wp (Proc.devRef .tc main_v13) = val_main_v13 (F := F) x1)
    (hz : Wp (Proc.devRef .tc main_cst_2) = val_main_cst_2 (F := F)) :
    StableHlo.after hostOps0_1 Wp (Proc.devRef .tc main_v14) = val_main_v14 (F := F) x1 := by
  after_results_simp
  rw [h12, h13, hz]; rfl

theorem stretch02_norm (x1 : (⟨Cert.ReferenceIdeal.S2x1000000, .i32⟩ : BufTy).Contents (Elt F))
    (h5 : Wp (Proc.devRef .tc main_v5) = val_main_v3 (F := F) x1) (h6 : Wp (Proc.devRef .tc main_v6) = val_main_v6 (F := F) x1)
    (h14 : Wp (Proc.devRef .tc main_v14) = val_main_v14 (F := F) x1) :
    StableHlo.after hostOps0_2 Wp (Proc.devRef .tc main_v29) = val_main_v29 (F := F) x1 := by
  after_results_simp
  rw [h5, h6, h14]; rfl
theorem stretch02_x (x0 : (⟨Cert.ReferenceIdeal.S100000x128, .f32⟩ : BufTy).Contents (Elt F)) (h0 : Wp (Proc.devRef .tc main_arg0) = x0) :
    StableHlo.after hostOps0_2 Wp (Proc.devRef .tc main_v30) = (truncf .bf16 x0 bitsLt_bf16_f32 : FVec F S100000x128 .bf16) := by
  after_results_simp
  rw [h0]
theorem stretch02_w (x3 : (⟨Cert.ReferenceIdeal.S128x128, .f32⟩ : BufTy).Contents (Elt F)) (h3 : Wp (Proc.devRef .tc main_arg3) = x3) :
    StableHlo.after hostOps0_2 Wp (Proc.devRef .tc main_v31) = (truncf .bf16 x3 bitsLt_bf16_f32 : FVec F S128x128 .bf16) := by
  after_results_simp
  rw [h3]

theorem stretch1_agg (x0 : (⟨Cert.ReferenceIdeal.S100000x128, .f32⟩ : BufTy).Contents (Elt F)) (x1 : (⟨Cert.ReferenceIdeal.S2x1000000, .i32⟩ : BufTy).Contents (Elt F)) (x3 : (⟨Cert.ReferenceIdeal.S128x128, .f32⟩ : BufTy).Contents (Elt F))
    (h5 : Wp (Proc.devRef .tc main_v5) = val_main_v3 (F := F) x1) (h6 : Wp (Proc.devRef .tc main_v6) = val_main_v6 (F := F) x1)
    (h29 : Wp (Proc.devRef .tc main_v29) = val_main_v29 (F := F) x1) (h32 : Wp (Proc.devRef .tc main_v32) = val_main_v30 (F := F) x0 x3) :
    StableHlo.after hostOps1 Wp (Proc.devRef .tc main_v45) = val_main_v43 (F := F) x0 x1 x3 := by
  after_results_simp
  rw [h5, h6, h29, h32]; rfl
theorem stretch1_b (x4 : (⟨Cert.ReferenceIdeal.S128, .f32⟩ : BufTy).Contents (Elt F)) (h4 : Wp (Proc.devRef .tc main_arg4) = x4) :
    StableHlo.after hostOps1 Wp (Proc.devRef .tc main_v46) = (shapeCast S1x128 x4 shapeCasts_S128_S1x128 : FVec F S1x128 .f32) := by
  after_results_simp
  rw [h4]; rfl

theorem stretch2_x (y : (⟨Cert.ReferenceIdeal.S100000x128, .f32⟩ : BufTy).Contents (Elt F)) (h47 : Wp (Proc.devRef .tc main_v47) = y) :
    StableHlo.after hostOps2 Wp (Proc.devRef .tc main_v48) = (truncf .bf16 y bitsLt_bf16_f32 : FVec F S100000x128 .bf16) := by
  after_results_simp
  rw [h47]
theorem stretch2_w (x5 : (⟨Cert.ReferenceIdeal.S128x128, .f32⟩ : BufTy).Contents (Elt F)) (h5 : Wp (Proc.devRef .tc main_arg5) = x5) :
    StableHlo.after hostOps2 Wp (Proc.devRef .tc main_v49) = (truncf .bf16 x5 bitsLt_bf16_f32 : FVec F S128x128 .bf16) := by
  after_results_simp
  rw [h5]

theorem stretch3_agg (x0 : (⟨Cert.ReferenceIdeal.S100000x128, .f32⟩ : BufTy).Contents (Elt F)) (x1 : (⟨Cert.ReferenceIdeal.S2x1000000, .i32⟩ : BufTy).Contents (Elt F)) (x3 : (⟨Cert.ReferenceIdeal.S128x128, .f32⟩ : BufTy).Contents (Elt F))
    (x4 : (⟨Cert.ReferenceIdeal.S128, .f32⟩ : BufTy).Contents (Elt F)) (x5 : (⟨Cert.ReferenceIdeal.S128x128, .f32⟩ : BufTy).Contents (Elt F))
    (h5 : Wp (Proc.devRef .tc main_v5) = val_main_v3 (F := F) x1) (h6 : Wp (Proc.devRef .tc main_v6) = val_main_v6 (F := F) x1)
    (h29 : Wp (Proc.devRef .tc main_v29) = val_main_v29 (F := F) x1)
    (h50 : Wp (Proc.devRef .tc main_v50) = val_main_v48 (F := F) x0 x1 x3 x4 x5) :
    StableHlo.after hostOps3 Wp (Proc.devRef .tc main_v63) = val_main_v61 (F := F) x0 x1 x3 x4 x5 := by
  after_results_simp
  rw [h5, h6, h29, h50]; rfl
theorem stretch3_b (x6 : (⟨Cert.ReferenceIdeal.S128, .f32⟩ : BufTy).Contents (Elt F)) (h6 : Wp (Proc.devRef .tc main_arg6) = x6) :
    StableHlo.after hostOps3 Wp (Proc.devRef .tc main_v64) = (shapeCast S1x128 x6 shapeCasts_S128_S1x128 : FVec F S1x128 .f32) := by
  after_results_simp
  rw [h6]; rfl

theorem stretch4_first (x0 : (⟨Cert.ReferenceIdeal.S100000x128, .f32⟩ : BufTy).Contents (Elt F)) (x1 : (⟨Cert.ReferenceIdeal.S2x1000000, .i32⟩ : BufTy).Contents (Elt F)) (x2 : (⟨Cert.ReferenceIdeal.S2x200000, .i32⟩ : BufTy).Contents (Elt F))
    (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F))
    (h2 : Wp (Proc.devRef .tc main_arg2) = x2) (h65 : Wp (Proc.devRef .tc main_v65) = val_main_v64 (F := F) x0 x1 x3 x4 x5 x6) :
    StableHlo.after hostOps4 Wp (Proc.devRef .tc main_v74) = val_main_v73 (F := F) x0 x1 x2 x3 x4 x5 x6 := by
  after_results_simp
  rw [h2, h65]; rfl
theorem stretch4_second (x0 : (⟨Cert.ReferenceIdeal.S100000x128, .f32⟩ : BufTy).Contents (Elt F)) (x1 : (⟨Cert.ReferenceIdeal.S2x1000000, .i32⟩ : BufTy).Contents (Elt F)) (x2 : (⟨Cert.ReferenceIdeal.S2x200000, .i32⟩ : BufTy).Contents (Elt F))
    (x3 : (⟨Cert.ReferenceIdeal.S128x128, .f32⟩ : BufTy).Contents (Elt F)) (x4 : (⟨Cert.ReferenceIdeal.S128, .f32⟩ : BufTy).Contents (Elt F)) (x5 : (⟨Cert.ReferenceIdeal.S128x128, .f32⟩ : BufTy).Contents (Elt F)) (x6 : (⟨Cert.ReferenceIdeal.S128, .f32⟩ : BufTy).Contents (Elt F))
    (h2 : Wp (Proc.devRef .tc main_arg2) = x2) (h65 : Wp (Proc.devRef .tc main_v65) = val_main_v64 (F := F) x0 x1 x3 x4 x5 x6) :
    StableHlo.after hostOps4 Wp (Proc.devRef .tc main_v83) = val_main_v82 (F := F) x0 x1 x2 x3 x4 x5 x6 := by
  after_results_simp
  rw [h2, h65]; rfl

theorem stretch5_result (y : (⟨S200000x1, .f32⟩ : BufTy).Contents (Elt F)) (h84 : Wp (Proc.devRef .tc main_v84) = y) :
    StableHlo.after hostOps5 Wp (Proc.devRef .tc main_v85) = (shapeCast S200000 y shapeCasts_S200000x1_S200000 : FVec F S200000 .f32) := by
  after_results_simp
  rw [h84]; rfl

end Stretches

/-! ## The kernel's run at the extended reals -/

variable (m : (ℓ : Loc nD τ sig) → Buf (Elt Ideal) ℓ) (ρ : Dev nD → PrngReg)

/-! ### The arguments as launched, typed as the reference's stages take them -/

abbrev a0 (c : Dev nD) : (⟨Cert.ReferenceIdeal.S100000x128, .f32⟩ : BufTy).Contents (Elt Ideal) := m ((c : Thread nD τ).loc main_arg0)
abbrev a1 (c : Dev nD) : (⟨Cert.ReferenceIdeal.S2x1000000, .i32⟩ : BufTy).Contents (Elt Ideal) := m ((c : Thread nD τ).loc main_arg1)
abbrev a2 (c : Dev nD) : (⟨Cert.ReferenceIdeal.S2x200000, .i32⟩ : BufTy).Contents (Elt Ideal) := m ((c : Thread nD τ).loc main_arg2)
abbrev a3 (c : Dev nD) : (⟨Cert.ReferenceIdeal.S128x128, .f32⟩ : BufTy).Contents (Elt Ideal) := m ((c : Thread nD τ).loc main_arg3)
abbrev a4 (c : Dev nD) : (⟨Cert.ReferenceIdeal.S128, .f32⟩ : BufTy).Contents (Elt Ideal) := m ((c : Thread nD τ).loc main_arg4)
abbrev a5 (c : Dev nD) : (⟨Cert.ReferenceIdeal.S128x128, .f32⟩ : BufTy).Contents (Elt Ideal) := m ((c : Thread nD τ).loc main_arg5)
abbrev a6 (c : Dev nD) : (⟨Cert.ReferenceIdeal.S128, .f32⟩ : BufTy).Contents (Elt Ideal) := m ((c : Thread nD τ).loc main_arg6)

/-- A buffer that no operation of the stretch writes holds after the stretch what it held before. -/
macro "kept_host " ops:ident : tactic => `(tactic|
  (refine StableHlo.after_of_forall_not_mem _ _ (List.forall_iff_forall_mem.mp ?_)
   simp only [$ops:ident, List.Forall, StableHlo.nullary_writes, StableHlo.unary_writes, StableHlo.binary_writes, StableHlo.ternary_writes, StableHlo.reshape_writes, Finset.mem_singleton]
   repeat' apply And.intro
   all_goals exact StableHlo.devRef_ne_of_ne (by decide)))

/-! ### After the first stretch (W1): the edge lists with self loops, the degree test and its reciprocal root -/

theorem src_1 (c : Dev nD) : W1 m ρ c (Proc.devRef .tc main_v5) = val_main_v3 (F := Ideal) (a1 m c) := stretch0_src (W0 m ρ c) (a1 m c) rfl
theorem dst_1 (c : Dev nD) : W1 m ρ c (Proc.devRef .tc main_v6) = val_main_v6 (F := Ideal) (a1 m c) := stretch0_dst (W0 m ρ c) (a1 m c) rfl
theorem pos_1 (c : Dev nD) : W1 m ρ c (Proc.devRef .tc main_v12) = val_main_v12 (F := Ideal) (a1 m c) := stretch0_pos (W0 m ρ c) (a1 m c) rfl
theorem rsq_1 (c : Dev nD) : W1 m ρ c (Proc.devRef .tc main_v13) = val_main_v13 (F := Ideal) (a1 m c) := stretch0_rsq (W0 m ρ c) (a1 m c) rfl
theorem zero_1 (c : Dev nD) : W1 m ρ c (Proc.devRef .tc main_cst_2) = val_main_cst_2 (F := Ideal) := stretch0_zero (W0 m ρ c)
theorem arg0_1 (c : Dev nD) : W1 m ρ c (Proc.devRef .tc main_arg0) = a0 m c := (by kept_host hostOps0 : _ = W0 m ρ c (Proc.devRef .tc main_arg0)).trans rfl
theorem arg2_1 (c : Dev nD) : W1 m ρ c (Proc.devRef .tc main_arg2) = a2 m c := (by kept_host hostOps0 : _ = W0 m ρ c (Proc.devRef .tc main_arg2)).trans rfl
theorem arg3_1 (c : Dev nD) : W1 m ρ c (Proc.devRef .tc main_arg3) = a3 m c := (by kept_host hostOps0 : _ = W0 m ρ c (Proc.devRef .tc main_arg3)).trans rfl
theorem arg4_1 (c : Dev nD) : W1 m ρ c (Proc.devRef .tc main_arg4) = a4 m c := (by kept_host hostOps0 : _ = W0 m ρ c (Proc.devRef .tc main_arg4)).trans rfl
theorem arg5_1 (c : Dev nD) : W1 m ρ c (Proc.devRef .tc main_arg5) = a5 m c := (by kept_host hostOps0 : _ = W0 m ρ c (Proc.devRef .tc main_arg5)).trans rfl
theorem arg6_1 (c : Dev nD) : W1 m ρ c (Proc.devRef .tc main_arg6) = a6 m c := (by kept_host hostOps0 : _ = W0 m ρ c (Proc.devRef .tc main_arg6)).trans rfl

/-! ### After the select of the reciprocal root where the degree is positive (W2) -/

theorem dinv_2 (c : Dev nD) : W2 m ρ c (Proc.devRef .tc main_v14) = val_main_v14 (F := Ideal) (a1 m c) :=
  stretch01_dinv (W1 m ρ c) (a1 m c) (pos_1 m ρ c) (rsq_1 m ρ c) (zero_1 m ρ c)
theorem src_2 (c : Dev nD) : W2 m ρ c (Proc.devRef .tc main_v5) = val_main_v3 (F := Ideal) (a1 m c) := (by kept_host hostOps0_1 : _ = W1 m ρ c (Proc.devRef .tc main_v5)).trans (src_1 m ρ c)
theorem dst_2 (c : Dev nD) : W2 m ρ c (Proc.devRef .tc main_v6) = val_main_v6 (F := Ideal) (a1 m c) := (by kept_host hostOps0_1 : _ = W1 m ρ c (Proc.devRef .tc main_v6)).trans (dst_1 m ρ c)
theorem arg0_2 (c : Dev nD) : W2 m ρ c (Proc.devRef .tc main_arg0) = a0 m c := (by kept_host hostOps0_1 : _ = W1 m ρ c (Proc.devRef .tc main_arg0)).trans (arg0_1 m ρ c)
theorem arg2_2 (c : Dev nD) : W2 m ρ c (Proc.devRef .tc main_arg2) = a2 m c := (by kept_host hostOps0_1 : _ = W1 m ρ c (Proc.devRef .tc main_arg2)).trans (arg2_1 m ρ c)
theorem arg3_2 (c : Dev nD) : W2 m ρ c (Proc.devRef .tc main_arg3) = a3 m c := (by kept_host hostOps0_1 : _ = W1 m ρ c (Proc.devRef .tc main_arg3)).trans (arg3_1 m ρ c)
theorem arg4_2 (c : Dev nD) : W2 m ρ c (Proc.devRef .tc main_arg4) = a4 m c := (by kept_host hostOps0_1 : _ = W1 m ρ c (Proc.devRef .tc main_arg4)).trans (arg4_1 m ρ c)
theorem arg5_2 (c : Dev nD) : W2 m ρ c (Proc.devRef .tc main_arg5) = a5 m c := (by kept_host hostOps0_1 : _ = W1 m ρ c (Proc.devRef .tc main_arg5)).trans (arg5_1 m ρ c)
theorem arg6_2 (c : Dev nD) : W2 m ρ c (Proc.devRef .tc main_arg6) = a6 m c := (by kept_host hostOps0_1 : _ = W1 m ρ c (Proc.devRef .tc main_arg6)).trans (arg6_1 m ρ c)

/-! ### At the first launch's entry (W3): the edge weights, and the first layer's operands narrowed -/

theorem norm_3 (c : Dev nD) : W3 m ρ c (Proc.devRef .tc main_v29) = val_main_v29 (F := Ideal) (a1 m c) :=
  stretch02_norm (W2 m ρ c) (a1 m c) (src_2 m ρ c) (dst_2 m ρ c) (dinv_2 m ρ c)
theorem x_3 (c : Dev nD) : W3 m ρ c (Proc.devRef .tc main_v30) = (truncf .bf16 (a0 m c) bitsLt_bf16_f32 : FVec Ideal S100000x128 .bf16) :=
  stretch02_x (W2 m ρ c) (a0 m c) (arg0_2 m ρ c)
theorem w_3 (c : Dev nD) : W3 m ρ c (Proc.devRef .tc main_v31) = (truncf .bf16 (a3 m c) bitsLt_bf16_f32 : FVec Ideal S128x128 .bf16) :=
  stretch02_w (W2 m ρ c) (a3 m c) (arg3_2 m ρ c)
theorem src_3 (c : Dev nD) : W3 m ρ c (Proc.devRef .tc main_v5) = val_main_v3 (F := Ideal) (a1 m c) := (by kept_host hostOps0_2 : _ = W2 m ρ c (Proc.devRef .tc main_v5)).trans (src_2 m ρ c)
theorem dst_3 (c : Dev nD) : W3 m ρ c (Proc.devRef .tc main_v6) = val_main_v6 (F := Ideal) (a1 m c) := (by kept_host hostOps0_2 : _ = W2 m ρ c (Proc.devRef .tc main_v6)).trans (dst_2 m ρ c)
theorem arg2_3 (c : Dev nD) : W3 m ρ c (Proc.devRef .tc main_arg2) = a2 m c := (by kept_host hostOps0_2 : _ = W2 m ρ c (Proc.devRef .tc main_arg2)).trans (arg2_2 m ρ c)
theorem arg4_3 (c : Dev nD) : W3 m ρ c (Proc.devRef .tc main_arg4) = a4 m c := (by kept_host hostOps0_2 : _ = W2 m ρ c (Proc.devRef .tc main_arg4)).trans (arg4_2 m ρ c)
theorem arg5_3 (c : Dev nD) : W3 m ρ c (Proc.devRef .tc main_arg5) = a5 m c := (by kept_host hostOps0_2 : _ = W2 m ρ c (Proc.devRef .tc main_arg5)).trans (arg5_2 m ρ c)
theorem arg6_3 (c : Dev nD) : W3 m ρ c (Proc.devRef .tc main_arg6) = a6 m c := (by kept_host hostOps0_2 : _ = W2 m ρ c (Proc.devRef .tc main_arg6)).trans (arg6_2 m ρ c)

/-! ### After the first layer's product (W4) -/

theorem h_4 (c : Dev nD) : W4 m ρ c (Proc.devRef .tc main_v32) = val_main_v30 (F := Ideal) (a0 m c) (a3 m c) := by
  refine (W4_arr m ρ c 2).trans ((Cert.KernelIdeal.RegionMatmul0.final0 (V3 m ρ) c).trans ?_)
  show Cert.Spec.mm (W3 m ρ c (Proc.devRef .tc main_v30)) (W3 m ρ c (Proc.devRef .tc main_v31)) = _
  rw [x_3, w_3]
  exact Cert.Bridge.mm_first (a0 m c) (a3 m c) _ _
theorem src_4 (c : Dev nD) : W4 m ρ c (Proc.devRef .tc main_v5) = val_main_v3 (F := Ideal) (a1 m c) := (W4_of_ne m ρ c main_v5 (by decide)).trans (src_3 m ρ c)
theorem dst_4 (c : Dev nD) : W4 m ρ c (Proc.devRef .tc main_v6) = val_main_v6 (F := Ideal) (a1 m c) := (W4_of_ne m ρ c main_v6 (by decide)).trans (dst_3 m ρ c)
theorem norm_4 (c : Dev nD) : W4 m ρ c (Proc.devRef .tc main_v29) = val_main_v29 (F := Ideal) (a1 m c) := (W4_of_ne m ρ c main_v29 (by decide)).trans (norm_3 m ρ c)
theorem arg2_4 (c : Dev nD) : W4 m ρ c (Proc.devRef .tc main_arg2) = a2 m c := (W4_of_ne m ρ c main_arg2 (by decide)).trans (arg2_3 m ρ c)
theorem arg4_4 (c : Dev nD) : W4 m ρ c (Proc.devRef .tc main_arg4) = a4 m c := (W4_of_ne m ρ c main_arg4 (by decide)).trans (arg4_3 m ρ c)
theorem arg5_4 (c : Dev nD) : W4 m ρ c (Proc.devRef .tc main_arg5) = a5 m c := (W4_of_ne m ρ c main_arg5 (by decide)).trans (arg5_3 m ρ c)
theorem arg6_4 (c : Dev nD) : W4 m ρ c (Proc.devRef .tc main_arg6) = a6 m c := (W4_of_ne m ρ c main_arg6 (by decide)).trans (arg6_3 m ρ c)

/-! ### After the first aggregation over the edges (W5) -/

theorem agg_5 (c : Dev nD) : W5 m ρ c (Proc.devRef .tc main_v45) = val_main_v43 (F := Ideal) (a0 m c) (a1 m c) (a3 m c) :=
  stretch1_agg (W4 m ρ c) (a0 m c) (a1 m c) (a3 m c) (src_4 m ρ c) (dst_4 m ρ c) (norm_4 m ρ c) (h_4 m ρ c)
theorem b_5 (c : Dev nD) : W5 m ρ c (Proc.devRef .tc main_v46) = (shapeCast S1x128 (a4 m c) shapeCasts_S128_S1x128 : FVec Ideal S1x128 .f32) :=
  stretch1_b (W4 m ρ c) (a4 m c) (arg4_4 m ρ c)
theorem src_5 (c : Dev nD) : W5 m ρ c (Proc.devRef .tc main_v5) = val_main_v3 (F := Ideal) (a1 m c) := (by kept_host hostOps1 : _ = W4 m ρ c (Proc.devRef .tc main_v5)).trans (src_4 m ρ c)
theorem dst_5 (c : Dev nD) : W5 m ρ c (Proc.devRef .tc main_v6) = val_main_v6 (F := Ideal) (a1 m c) := (by kept_host hostOps1 : _ = W4 m ρ c (Proc.devRef .tc main_v6)).trans (dst_4 m ρ c)
theorem norm_5 (c : Dev nD) : W5 m ρ c (Proc.devRef .tc main_v29) = val_main_v29 (F := Ideal) (a1 m c) := (by kept_host hostOps1 : _ = W4 m ρ c (Proc.devRef .tc main_v29)).trans (norm_4 m ρ c)
theorem arg2_5 (c : Dev nD) : W5 m ρ c (Proc.devRef .tc main_arg2) = a2 m c := (by kept_host hostOps1 : _ = W4 m ρ c (Proc.devRef .tc main_arg2)).trans (arg2_4 m ρ c)
theorem arg5_5 (c : Dev nD) : W5 m ρ c (Proc.devRef .tc main_arg5) = a5 m c := (by kept_host hostOps1 : _ = W4 m ρ c (Proc.devRef .tc main_arg5)).trans (arg5_4 m ρ c)
theorem arg6_5 (c : Dev nD) : W5 m ρ c (Proc.devRef .tc main_arg6) = a6 m c := (by kept_host hostOps1 : _ = W4 m ρ c (Proc.devRef .tc main_arg6)).trans (arg6_4 m ρ c)

/-! ### After the first bias and clamp (W6) -/

theorem x1_6 (c : Dev nD) : W6 m ρ c (Proc.devRef .tc main_v47) = val_main_v47 (F := Ideal) (a0 m c) (a1 m c) (a3 m c) (a4 m c) := by
  refine (W6_arr m ρ c 2).trans ((Cert.KernelIdeal.RegionBias.final1 (V5 m ρ) c).trans ?_)
  show Cert.Spec.addRowClamp (W5 m ρ c (Proc.devRef .tc main_v45)) (W5 m ρ c (Proc.devRef .tc main_v46)) = _
  rw [agg_5, b_5]
  exact Cert.Bridge.bias_first (a0 m c) (a1 m c) (a3 m c) (a4 m c) _
theorem src_6 (c : Dev nD) : W6 m ρ c (Proc.devRef .tc main_v5) = val_main_v3 (F := Ideal) (a1 m c) := (W6_of_ne m ρ c main_v5 (by decide)).trans (src_5 m ρ c)
theorem dst_6 (c : Dev nD) : W6 m ρ c (Proc.devRef .tc main_v6) = val_main_v6 (F := Ideal) (a1 m c) := (W6_of_ne m ρ c main_v6 (by decide)).trans (dst_5 m ρ c)
theorem norm_6 (c : Dev nD) : W6 m ρ c (Proc.devRef .tc main_v29) = val_main_v29 (F := Ideal) (a1 m c) := (W6_of_ne m ρ c main_v29 (by decide)).trans (norm_5 m ρ c)
theorem arg2_6 (c : Dev nD) : W6 m ρ c (Proc.devRef .tc main_arg2) = a2 m c := (W6_of_ne m ρ c main_arg2 (by decide)).trans (arg2_5 m ρ c)
theorem arg5_6 (c : Dev nD) : W6 m ρ c (Proc.devRef .tc main_arg5) = a5 m c := (W6_of_ne m ρ c main_arg5 (by decide)).trans (arg5_5 m ρ c)
theorem arg6_6 (c : Dev nD) : W6 m ρ c (Proc.devRef .tc main_arg6) = a6 m c := (W6_of_ne m ρ c main_arg6 (by decide)).trans (arg6_5 m ρ c)

/-! ### At the second product's entry (W7): its operands narrowed -/

theorem x_7 (c : Dev nD) : W7 m ρ c (Proc.devRef .tc main_v48)
    = (truncf .bf16 (val_main_v47 (F := Ideal) (a0 m c) (a1 m c) (a3 m c) (a4 m c)) bitsLt_bf16_f32 : FVec Ideal S100000x128 .bf16) :=
  stretch2_x (W6 m ρ c) _ (x1_6 m ρ c)
theorem w_7 (c : Dev nD) : W7 m ρ c (Proc.devRef .tc main_v49) = (truncf .bf16 (a5 m c) bitsLt_bf16_f32 : FVec Ideal S128x128 .bf16) :=
  stretch2_w (W6 m ρ c) (a5 m c) (arg5_6 m ρ c)
theorem src_7 (c : Dev nD) : W7 m ρ c (Proc.devRef .tc main_v5) = val_main_v3 (F := Ideal) (a1 m c) := (by kept_host hostOps2 : _ = W6 m ρ c (Proc.devRef .tc main_v5)).trans (src_6 m ρ c)
theorem dst_7 (c : Dev nD) : W7 m ρ c (Proc.devRef .tc main_v6) = val_main_v6 (F := Ideal) (a1 m c) := (by kept_host hostOps2 : _ = W6 m ρ c (Proc.devRef .tc main_v6)).trans (dst_6 m ρ c)
theorem norm_7 (c : Dev nD) : W7 m ρ c (Proc.devRef .tc main_v29) = val_main_v29 (F := Ideal) (a1 m c) := (by kept_host hostOps2 : _ = W6 m ρ c (Proc.devRef .tc main_v29)).trans (norm_6 m ρ c)
theorem arg2_7 (c : Dev nD) : W7 m ρ c (Proc.devRef .tc main_arg2) = a2 m c := (by kept_host hostOps2 : _ = W6 m ρ c (Proc.devRef .tc main_arg2)).trans (arg2_6 m ρ c)
theorem arg6_7 (c : Dev nD) : W7 m ρ c (Proc.devRef .tc main_arg6) = a6 m c := (by kept_host hostOps2 : _ = W6 m ρ c (Proc.devRef .tc main_arg6)).trans (arg6_6 m ρ c)

/-! ### After the second layer's product (W8) -/

theorem h_8 (c : Dev nD) : W8 m ρ c (Proc.devRef .tc main_v50)
    = val_main_v48 (F := Ideal) (a0 m c) (a1 m c) (a3 m c) (a4 m c) (a5 m c) := by
  refine (W8_arr m ρ c 2).trans ((Cert.KernelIdeal.RegionMatmul2.final2 (V7 m ρ) c).trans ?_)
  show Cert.Spec.mm (W7 m ρ c (Proc.devRef .tc main_v48)) (W7 m ρ c (Proc.devRef .tc main_v49)) = _
  rw [x_7, w_7]
  exact Cert.Bridge.mm_second (a0 m c) (a1 m c) (a3 m c) (a4 m c) (a5 m c) _ _
theorem src_8 (c : Dev nD) : W8 m ρ c (Proc.devRef .tc main_v5) = val_main_v3 (F := Ideal) (a1 m c) := (W8_of_ne m ρ c main_v5 (by decide)).trans (src_7 m ρ c)
theorem dst_8 (c : Dev nD) : W8 m ρ c (Proc.devRef .tc main_v6) = val_main_v6 (F := Ideal) (a1 m c) := (W8_of_ne m ρ c main_v6 (by decide)).trans (dst_7 m ρ c)
theorem norm_8 (c : Dev nD) : W8 m ρ c (Proc.devRef .tc main_v29) = val_main_v29 (F := Ideal) (a1 m c) := (W8_of_ne m ρ c main_v29 (by decide)).trans (norm_7 m ρ c)
theorem arg2_8 (c : Dev nD) : W8 m ρ c (Proc.devRef .tc main_arg2) = a2 m c := (W8_of_ne m ρ c main_arg2 (by decide)).trans (arg2_7 m ρ c)
theorem arg6_8 (c : Dev nD) : W8 m ρ c (Proc.devRef .tc main_arg6) = a6 m c := (W8_of_ne m ρ c main_arg6 (by decide)).trans (arg6_7 m ρ c)

/-! ### After the second aggregation over the edges (W9) -/

theorem agg_9 (c : Dev nD) : W9 m ρ c (Proc.devRef .tc main_v63)
    = val_main_v61 (F := Ideal) (a0 m c) (a1 m c) (a3 m c) (a4 m c) (a5 m c) :=
  stretch3_agg (W8 m ρ c) (a0 m c) (a1 m c) (a3 m c) (a4 m c) (a5 m c) (src_8 m ρ c) (dst_8 m ρ c) (norm_8 m ρ c) (h_8 m ρ c)
theorem b_9 (c : Dev nD) : W9 m ρ c (Proc.devRef .tc main_v64) = (shapeCast S1x128 (a6 m c) shapeCasts_S128_S1x128 : FVec Ideal S1x128 .f32) :=
  stretch3_b (W8 m ρ c) (a6 m c) (arg6_8 m ρ c)
theorem arg2_9 (c : Dev nD) : W9 m ρ c (Proc.devRef .tc main_arg2) = a2 m c := (by kept_host hostOps3 : _ = W8 m ρ c (Proc.devRef .tc main_arg2)).trans (arg2_8 m ρ c)

/-! ### After the second bias (W10) -/

theorem x2_10 (c : Dev nD) : W10 m ρ c (Proc.devRef .tc main_v65)
    = val_main_v64 (F := Ideal) (a0 m c) (a1 m c) (a3 m c) (a4 m c) (a5 m c) (a6 m c) := by
  refine (W10_arr m ρ c 2).trans ((Cert.KernelIdeal.RegionBias.final3 (V9 m ρ) c).trans ?_)
  show Cert.Spec.addRow (W9 m ρ c (Proc.devRef .tc main_v63)) (W9 m ρ c (Proc.devRef .tc main_v64)) = _
  rw [agg_9, b_9]
  exact Cert.Bridge.bias_second (a0 m c) (a1 m c) (a3 m c) (a4 m c) (a5 m c) (a6 m c) _
theorem arg2_10 (c : Dev nD) : W10 m ρ c (Proc.devRef .tc main_arg2) = a2 m c := (W10_of_ne m ρ c main_arg2 (by decide)).trans (arg2_9 m ρ c)

/-! ### The scored pairs' endpoint rows gathered (W11) -/

theorem first_11 (c : Dev nD) : W11 m ρ c (Proc.devRef .tc main_v74)
    = val_main_v73 (F := Ideal) (a0 m c) (a1 m c) (a2 m c) (a3 m c) (a4 m c) (a5 m c) (a6 m c) :=
  stretch4_first (W10 m ρ c) (a0 m c) (a1 m c) (a2 m c) (a3 m c) (a4 m c) (a5 m c) (a6 m c) (arg2_10 m ρ c) (x2_10 m ρ c)
theorem second_11 (c : Dev nD) : W11 m ρ c (Proc.devRef .tc main_v83)
    = val_main_v82 (F := Ideal) (a0 m c) (a1 m c) (a2 m c) (a3 m c) (a4 m c) (a5 m c) (a6 m c) :=
  stretch4_second (W10 m ρ c) (a0 m c) (a1 m c) (a2 m c) (a3 m c) (a4 m c) (a5 m c) (a6 m c) (arg2_10 m ρ c) (x2_10 m ρ c)
/-! ### The scores as a column (W12), and the result (W13) -/

theorem col_12 (c : Dev nD) : W12 m ρ c (Proc.devRef .tc main_v84)
    = Cert.Spec.rowDot (val_main_v73 (F := Ideal) (a0 m c) (a1 m c) (a2 m c) (a3 m c) (a4 m c) (a5 m c) (a6 m c))
        (val_main_v82 (F := Ideal) (a0 m c) (a1 m c) (a2 m c) (a3 m c) (a4 m c) (a5 m c) (a6 m c)) := by
  refine (W12_arr m ρ c 2).trans ((Cert.KernelIdeal.RegionScore.final4 (V11 m ρ) c).trans ?_)
  show Cert.Spec.rowDot (W11 m ρ c (Proc.devRef .tc main_v74)) (W11 m ρ c (Proc.devRef .tc main_v83)) = _
  rw [first_11, second_11]

/-- The result buffer at the last boundary is the reference's result stage of the seven arguments as launched. -/
theorem result (c : Dev nD) : W13 m ρ c (Proc.devRef .tc main_v85)
    = val_main_v84 (F := Ideal) (a0 m c) (a1 m c) (a2 m c) (a3 m c) (a4 m c) (a5 m c) (a6 m c) :=
  (stretch5_result (W12 m ρ c) _ (col_12 m ρ c)).trans
    (Cert.Bridge.score (a0 m c) (a1 m c) (a2 m c) (a3 m c) (a4 m c) (a5 m c) (a6 m c) _)

end Cert.KernelIdeal.Chain

end
-- ==== Proof.lean ====
/-
  A two-layer graph convolution with edge scoring, in which the Pallas kernel moves the two dense products, the two bias
  passes and the final row-dot into five launches and leaves the data-dependent gathers and scatter-adds on the host, against
  the all-host reference. Over the extended reals the two programs compute the same function:

  * a launch's dense product of the operands narrowed to bf16 is the reference's `dot_general` (narrowing is the identity,
    and both are the sum over the 128 contracted features of the products);
  * a launch's bias pass adds the bias row to every node's row, as the reference's broadcast sum does, and the first one's
    maximum with zero is the reference's relu;
  * the scoring launch's row sums of the entrywise product, stored as a column and reshaped, are the reference's sum over
    the feature axis from the initial value zero;
  * every other operation (the self-looped edge lists, the degrees by scatter-add, the reciprocal roots, the edge weights,
    the gathers of source rows, the scatter-adds into target rows, the gathers of the scored endpoints) is the same host
    operation on the same values in both programs.

  No finiteness is used: no sum is regrouped and no factor moved, so the precondition is never opened. The three frames are
  the generated ones (the reference's is its run with the result dropped); the idealization rewrote nothing.
-/
import proofs.«137685_j16406775071044_1_alg».proof.Defs
import proofs.«137685_j16406775071044_1_alg».proof.Proof.Gen.Kernel
import proofs.«137685_j16406775071044_1_alg».proof.Proof.Gen.Kernel.Skeleton
import proofs.«137685_j16406775071044_1_alg».proof.Proof.Gen.Kernel.Launch
import proofs.«137685_j16406775071044_1_alg».proof.Proof.Gen.Kernel.Points
import proofs.«137685_j16406775071044_1_alg».proof.Proof.Gen.Kernel.Frame
import proofs.«137685_j16406775071044_1_alg».proof.Proof.Gen.KernelIdeal
import proofs.«137685_j16406775071044_1_alg».proof.Proof.Gen.KernelIdeal.Skeleton
import proofs.«137685_j16406775071044_1_alg».proof.Proof.Gen.KernelIdeal.Launch
import proofs.«137685_j16406775071044_1_alg».proof.Proof.Gen.KernelIdeal.Points
import proofs.«137685_j16406775071044_1_alg».proof.Proof.Gen.KernelIdeal.Frame
import proofs.«137685_j16406775071044_1_alg».proof.Proof.Gen.ReferenceIdeal
import proofs.«137685_j16406775071044_1_alg».proof.Proof.Gen.Pre_finite_inputs
import proofs.«137685_j16406775071044_1_alg».proof.Proof.RefRun
import proofs.«137685_j16406775071044_1_alg».proof.Proof.RefRead
import proofs.«137685_j16406775071044_1_alg».proof.Proof.KernelRun
import proofs.«137685_j16406775071044_1_alg».proof.Proof.Chain
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the reference's result stage of the (agreeing) arguments: the kernel's result buffer by the walk
    through its stretches and launches, the reference's by its run. -/
theorem algebraic : Cert.algebraic_KernelIdeal_ReferenceIdeal := by
  intro m ρ m' ρ' _ hagree
  refine ⟨fun c => Cert.KernelIdeal.Gen.W13 m ρ c (Proc.devRef .tc Cert.KernelIdeal.main_v85),
    Cert.KernelIdeal.GenRun.run_result (F := Ideal) m ρ, ?_⟩
  refine (θ_run Cert.ReferenceIdeal.defs _ _).mono (fun _ h c => ⟨(h c).1.trans ?_, (h c).2⟩)
    (Cert.ReferenceIdeal.ValueP.run (F := Ideal) m' ρ')
  show Cert.ReferenceIdeal.ValueP.res_main_v84 m' c = Cert.KernelIdeal.Gen.W13 m ρ c (Proc.devRef .tc Cert.KernelIdeal.main_v85)
  rw [Cert.ReferenceIdeal.ReadP.val_main_v84_eq, Cert.KernelIdeal.Chain.result m ρ c]
  obtain ⟨h0, h1, h2, h3, h4, h5, h6⟩ := hagree c
  rw [h0, h1, h2, h3, h4, h5, h6]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
